-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x256x256x128 : Shape := ⟨4, ![1, 256, 256, 128]⟩
abbrev S1x256x1x1x256 : Shape := ⟨5, ![1, 256, 1, 1, 256]⟩
abbrev S1x1x4x256x256 : Shape := ⟨5, ![1, 1, 4, 256, 256]⟩
abbrev S4x32x128 : Shape := ⟨3, ![4, 32, 128]⟩
abbrev S4x32 : Shape := ⟨2, ![4, 32]⟩
abbrev S128x128 : Shape := ⟨2, ![128, 128]⟩
abbrev S128 : Shape := ⟨1, ![128]⟩
abbrev S_ : Shape := ⟨0, ![]⟩

class Facts : Prop where
  bcast_S_S1x256x256x128 : S_.BroadcastsInDim S1x256x256x128 (![] : Fin 0 → Fin S1x256x256x128.rank)
  reducesTo_S1x256x256x128_S_d0_1_2_3 : S1x256x256x128.ReducesTo [0, 1, 2, 3] S_
  h_S_ : 0 < S_.numel
  bcast_S_S1x256x1x1x256 : S_.BroadcastsInDim S1x256x1x1x256 (![] : Fin 0 → Fin S1x256x1x1x256.rank)
  reducesTo_S1x256x1x1x256_S_d0_1_2_3_4 : S1x256x1x1x256.ReducesTo [0, 1, 2, 3, 4] S_
  bcast_S_S1x1x4x256x256 : S_.BroadcastsInDim S1x1x4x256x256 (![] : Fin 0 → Fin S1x1x4x256x256.rank)
  reducesTo_S1x1x4x256x256_S_d0_1_2_3_4 : S1x1x4x256x256.ReducesTo [0, 1, 2, 3, 4] S_
  bcast_S_S4x32x128 : S_.BroadcastsInDim S4x32x128 (![] : Fin 0 → Fin S4x32x128.rank)
  reducesTo_S4x32x128_S_d0_1_2 : S4x32x128.ReducesTo [0, 1, 2] S_
  bcast_S_S4x32 : S_.BroadcastsInDim S4x32 (![] : Fin 0 → Fin S4x32.rank)
  reducesTo_S4x32_S_d0_1 : S4x32.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part3 {F : FTy → Type} [FloatOps F] (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  main_v53

def fn_part2 {F : FTy → Type} [FloatOps F] (main_arg7 : FVec F S4x32x128 .f32) (main_arg8 : FVec F S4x32 .f32) (main_arg9 : FVec F S128x128 .f32) (main_arg10 : FVec F S128 .f32) (main_v33 : IVec S_ 1) : IVec S_ 1 :=
  let main_v34 : FVec F S4x32x128 .f32 := Host.absf main_arg7
  let main_cst_12 : FVec F S_ .f32 := constant S_ .f32 0x7F800000#32
  let main_v35 : FVec F S4x32x128 .f32 := broadcastInDim S4x32x128 ![] bcast_S_S4x32x128 main_cst_12
  let main_v36 : IVec S4x32x128 1 := cmpf .olt main_v34 main_v35
  let main_c_13 : IVec S_ 1 := constantI S_ 1 1#1
  let main_v37 : IVec S_ 1 := (fun x v => Host.reduce IntOp.andi x v reducesTo_S4x32x128_S_d0_1_2 h_S_) main_v36 main_c_13
  let main_v38 : IVec S_ 1 := andi main_v33 main_v37
  let main_v39 : FVec F S4x32 .f32 := Host.absf main_arg8
  let main_cst_14 : FVec F S_ .f32 := constant S_ .f32 0x7F800000#32
  let main_v40 : FVec F S4x32 .f32 := broadcastInDim S4x32 ![] bcast_S_S4x32 main_cst_14
  let main_v41 : IVec S4x32 1 := cmpf .olt main_v39 main_v40
  let main_c_15 : IVec S_ 1 := constantI S_ 1 1#1
  let main_v42 : IVec S_ 1 := (fun x v => Host.reduce IntOp.andi x v reducesTo_S4x32_S_d0_1 h_S_) main_v41 main_c_15
  let main_v43 : IVec S_ 1 := andi main_v38 main_v42
  let main_v44 : FVec F S128x128 .f32 := Host.absf main_arg9
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg10
  let main_cst_18 : FVec F S_ .f32 := constant S_ .f32 0x7F800000#32
  let main_v50 : FVec F S128 .f32 := broadcastInDim S128 ![] bcast_S_S128 main_cst_18
  fn_part3 (F := F) main_v48 main_v49 main_v50

def fn_part1 {F : FTy → Type} [FloatOps F] (main_arg4 : FVec F S4x32x128 .f32) (main_arg5 : FVec F S4x32x128 .f32) (main_arg6 : FVec F S4x32x128 .f32) (main_arg7 : FVec F S4x32x128 .f32) (main_arg8 : FVec F S4x32 .f32) (main_arg9 : FVec F S128x128 .f32) (main_arg10 : FVec F S128 .f32) (main_v13 : IVec S_ 1) (main_v16 : IVec S1x1x4x256x256 1) : IVec S_ 1 :=
  let main_c_5 : IVec S_ 1 := constantI S_ 1 1#1
  let main_v17 : IVec S_ 1 := (fun x v => Host.reduce IntOp.andi x v reducesTo_S1x1x4x256x256_S_d0_1_2_3_4 h_S_) main_v16 main_c_5
  let main_v18 : IVec S_ 1 := andi main_v13 main_v17
  let main_v19 : FVec F S4x32x128 .f32 := Host.absf main_arg4
  let main_cst_6 : FVec F S_ .f32 := constant S_ .f32 0x7F800000#32
  let main_v20 : FVec F S4x32x128 .f32 := broadcastInDim S4x32x128 ![] bcast_S_S4x32x128 main_cst_6
  let main_v21 : IVec S4x32x128 1 := cmpf .olt main_v19 main_v20
  let main_c_7 : IVec S_ 1 := constantI S_ 1 1#1
  let main_v22 : IVec S_ 1 := (fun x v => Host.reduce IntOp.andi x v reducesTo_S4x32x128_S_d0_1_2 h_S_) main_v21 main_c_7
  let main_v23 : IVec S_ 1 := andi main_v18 main_v22
  let main_v24 : FVec F S4x32x128 .f32 := Host.absf main_arg5
  let main_cst_8 : FVec F S_ .f32 := constant S_ .f32 0x7F800000#32
  let main_v25 : FVec F S4x32x128 .f32 := broadcastInDim S4x32x128 ![] bcast_S_S4x32x128 main_cst_8
  let main_v26 : IVec S4x32x128 1 := cmpf .olt main_v24 main_v25
  let main_c_9 : IVec S_ 1 := constantI S_ 1 1#1
  let main_v27 : IVec S_ 1 := (fun x v => Host.reduce IntOp.andi x v reducesTo_S4x32x128_S_d0_1_2 h_S_) main_v26 main_c_9
  let main_v28 : IVec S_ 1 := andi main_v23 main_v27
  let main_v29 : FVec F S4x32x128 .f32 := Host.absf main_arg6
  let main_cst_10 : FVec F S_ .f32 := constant S_ .f32 0x7F800000#32
  let main_v30 : FVec F S4x32x128 .f32 := broadcastInDim S4x32x128 ![] bcast_S_S4x32x128 main_cst_10
  let main_v31 : IVec S4x32x128 1 := cmpf .olt main_v29 main_v30
  let main_c_11 : IVec S_ 1 := constantI S_ 1 1#1
  let main_v32 : IVec S_ 1 := (fun x v => Host.reduce IntOp.andi x v reducesTo_S4x32x128_S_d0_1_2 h_S_) main_v31 main_c_11
  let main_v33 : IVec S_ 1 := andi main_v28 main_v32
  fn_part2 (F := F) main_arg7 main_arg8 main_arg9 main_arg10 main_v33

def fn {F : FTy → Type} [FloatOps F] (main_arg0 : FVec F S1x256x256x128 .f32) (main_arg1 : FVec F S1x256x256x128 .f32) (main_arg2 : FVec F S1x256x1x1x256 .f32) (main_arg3 : FVec F S1x1x4x256x256 .f32) (main_arg4 : FVec F S4x32x128 .f32) (main_arg5 : FVec F S4x32x128 .f32) (main_arg6 : FVec F S4x32x128 .f32) (main_arg7 : FVec F S4x32x128 .f32) (main_arg8 : FVec F S4x32 .f32) (main_arg9 : FVec F S128x128 .f32) (main_arg10 : FVec F S128 .f32) : IVec S_ 1 :=
  let main_v0 : FVec F S1x256x256x128 .f32 := Host.absf main_arg0
  let main_cst : FVec F S_ .f32 := constant S_ .f32 0x7F800000#32
  let main_v1 : FVec F S1x256x256x128 .f32 := broadcastInDim S1x256x256x128 ![] bcast_S_S1x256x256x128 main_cst
  let main_v2 : IVec S1x256x256x128 1 := cmpf .olt main_v0 main_v1
  let main_c : IVec S_ 1 := constantI S_ 1 1#1
  let main_v3 : IVec S_ 1 := (fun x v => Host.reduce IntOp.andi x v reducesTo_S1x256x256x128_S_d0_1_2_3 h_S_) main_v2 main_c
  let main_v4 : FVec F S1x256x256x128 .f32 := Host.absf main_arg1
  let main_cst_0 : FVec F S_ .f32 := constant S_ .f32 0x7F800000#32
  let main_v5 : FVec F S1x256x256x128 .f32 := broadcastInDim S1x256x256x128 ![] bcast_S_S1x256x256x128 main_cst_0
  let main_v6 : IVec S1x256x256x128 1 := cmpf .olt main_v4 main_v5
  let main_c_1 : IVec S_ 1 := constantI S_ 1 1#1
  let main_v7 : IVec S_ 1 := (fun x v => Host.reduce IntOp.andi x v reducesTo_S1x256x256x128_S_d0_1_2_3 h_S_) main_v6 main_c_1
  let main_v8 : IVec S_ 1 := andi main_v3 main_v7
  let main_v9 : FVec F S1x256x1x1x256 .f32 := Host.absf main_arg2
  let main_cst_2 : FVec F S_ .f32 := constant S_ .f32 0x7F800000#32
  let main_v10 : FVec F S1x256x1x1x256 .f32 := broadcastInDim S1x256x1x1x256 ![] bcast_S_S1x256x1x1x256 main_cst_2
  let main_v11 : IVec S1x256x1x1x256 1 := cmpf .olt main_v9 main_v10
  let main_c_3 : IVec S_ 1 := constantI S_ 1 1#1
  let main_v12 : IVec S_ 1 := (fun x v => Host.reduce IntOp.andi x v reducesTo_S1x256x1x1x256_S_d0_1_2_3_4 h_S_) main_v11 main_c_3
  let main_v13 : IVec S_ 1 := andi main_v8 main_v12
  let main_v14 : FVec F S1x1x4x256x256 .f32 := Host.absf main_arg3
  let main_cst_4 : FVec F S_ .f32 := constant S_ .f32 0x7F800000#32
  let main_v15 : FVec F S1x1x4x256x256 .f32 := broadcastInDim S1x1x4x256x256 ![] bcast_S_S1x1x4x256x256 main_cst_4
  let main_v16 : IVec S1x1x4x256x256 1 := cmpf .olt main_v14 main_v15
  fn_part1 (F := F) main_arg4 main_arg5 main_arg6 main_arg7 main_arg8 main_arg9 main_arg10 main_v13 main_v16
-- ==== Kernel.lean ====
abbrev S1x256x256x128 : Shape := ⟨4, ![1, 256, 256, 128]⟩
abbrev S1x256x1x1x256 : Shape := ⟨5, ![1, 256, 1, 1, 256]⟩
abbrev S1x1x4x256x256 : Shape := ⟨5, ![1, 1, 4, 256, 256]⟩
abbrev S4x32x128 : Shape := ⟨3, ![4, 32, 128]⟩
abbrev S4x32 : Shape := ⟨2, ![4, 32]⟩
abbrev S128x128 : Shape := ⟨2, ![128, 128]⟩
abbrev S128 : Shape := ⟨1, ![128]⟩
abbrev S4x1x32 : Shape := ⟨3, ![4, 1, 32]⟩
abbrev S1x128 : Shape := ⟨2, ![1, 128]⟩
abbrev S128x4x32 : Shape := ⟨3, ![128, 4, 32]⟩
abbrev S4x128x32 : Shape := ⟨3, ![4, 128, 32]⟩
abbrev S1x16x256x128 : Shape := ⟨4, ![1, 16, 256, 128]⟩
abbrev S1x16x1x1x256 : Shape := ⟨5, ![1, 16, 1, 1, 256]⟩
abbrev S16x256x128 : Shape := ⟨3, ![16, 256, 128]⟩
abbrev S4096x128 : Shape := ⟨2, ![4096, 128]⟩
abbrev S16x256 : Shape := ⟨2, ![16, 256]⟩
abbrev S16x1x256 : Shape := ⟨3, ![16, 1, 256]⟩
abbrev S16x256x1 : Shape := ⟨3, ![16, 256, 1]⟩
abbrev S16x256x256 : Shape := ⟨3, ![16, 256, 256]⟩
abbrev S1x32x128 : Shape := ⟨3, ![1, 32, 128]⟩
abbrev S32x128 : Shape := ⟨2, ![32, 128]⟩
abbrev S1x1x32 : Shape := ⟨3, ![1, 1, 32]⟩
abbrev S1x32 : Shape := ⟨2, ![1, 32]⟩
abbrev S128x32 : Shape := ⟨2, ![128, 32]⟩
abbrev S4096x32 : Shape := ⟨2, ![4096, 32]⟩
abbrev S16x256x32 : Shape := ⟨3, ![16, 256, 32]⟩
abbrev S1x1x1x256x256 : Shape := ⟨5, ![1, 1, 1, 256, 256]⟩
abbrev S256x256 : Shape := ⟨2, ![256, 256]⟩
abbrev S1x256x256 : Shape := ⟨3, ![1, 256, 256]⟩
abbrev S1x128x32 : Shape := ⟨3, ![1, 128, 32]⟩

abbrev nBuf : Space → Nat
  | .hbm => 16
  | .vmem => 16
  | .smem => 0
  | _ => 0

abbrev bufTy : (tb : Table) → Fin (tcTables nBuf tb) → BufTy
  | .hbm, ⟨0, _⟩ => ⟨S1x256x256x128, .f32⟩
  | .hbm, ⟨1, _⟩ => ⟨S1x256x256x128, .f32⟩
  | .hbm, ⟨2, _⟩ => ⟨S1x256x1x1x256, .f32⟩
  | .hbm, ⟨3, _⟩ => ⟨S1x1x4x256x256, .f32⟩
  | .hbm, ⟨4, _⟩ => ⟨S4x32x128, .f32⟩
  | .hbm, ⟨5, _⟩ => ⟨S4x32x128, .f32⟩
  | .hbm, ⟨6, _⟩ => ⟨S4x32x128, .f32⟩
  | .hbm, ⟨7, _⟩ => ⟨S4x32x128, .f32⟩
  | .hbm, ⟨8, _⟩ => ⟨S4x32, .f32⟩
  | .hbm, ⟨9, _⟩ => ⟨S128x128, .f32⟩
  | .hbm, ⟨10, _⟩ => ⟨S128, .f32⟩
  | .hbm, ⟨11, _⟩ => ⟨S4x1x32, .f32⟩
  | .hbm, ⟨12, _⟩ => ⟨S1x128, .f32⟩
  | .hbm, ⟨13, _⟩ => ⟨S128x4x32, .f32⟩
  | .hbm, ⟨14, _⟩ => ⟨S4x128x32, .f32⟩
  | .hbm, ⟨15, _⟩ => ⟨S1x256x256x128, .f32⟩
  | .local _ .vmem, ⟨0, _⟩ => ⟨S1x16x256x128, .f32⟩
  | .local _ .vmem, ⟨1, _⟩ => ⟨S1x16x256x128, .f32⟩
  | .local _ .vmem, ⟨2, _⟩ => ⟨S1x16x256x128, .f32⟩
  | .local _ .vmem, ⟨3, _⟩ => ⟨S1x16x256x128, .f32⟩
  | .local _ .vmem, ⟨4, _⟩ => ⟨S1x16x1x1x256, .f32⟩
  | .local _ .vmem, ⟨5, _⟩ => ⟨S1x16x1x1x256, .f32⟩
  | .local _ .vmem, ⟨6, _⟩ => ⟨S1x1x4x256x256, .f32⟩
  | .local _ .vmem, ⟨7, _⟩ => ⟨S4x32x128, .f32⟩
  | .local _ .vmem, ⟨8, _⟩ => ⟨S4x32x128, .f32⟩
  | .local _ .vmem, ⟨9, _⟩ => ⟨S4x32x128, .f32⟩
  | .local _ .vmem, ⟨10, _⟩ => ⟨S4x32x128, .f32⟩
  | .local _ .vmem, ⟨11, _⟩ => ⟨S4x1x32, .f32⟩
  | .local _ .vmem, ⟨12, _⟩ => ⟨S4x128x32, .f32⟩
  | .local _ .vmem, ⟨13, _⟩ => ⟨S1x128, .f32⟩
  | .local _ .vmem, ⟨14, _⟩ => ⟨S1x16x256x128, .f32⟩
  | .local _ .vmem, ⟨15, _⟩ => ⟨S1x16x256x128, .f32⟩
  | _, _ => ⟨S1x256x256x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_2 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, c0_i32_0.toNat, c0_i32_1.toNat, c0_i32_2.toNat]

def cc0_transform_3 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  let c0_i32_4 : BitVec 32 := 0#32
  ![c0_i32.toNat, c0_i32_0.toNat, c0_i32_1.toNat, c0_i32_2.toNat, c0_i32_3.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S1x16x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x16x256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x16x1x1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1x4x256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x32x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x32x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x32x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x32x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x1x32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x128x32 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1x16x256x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  shapeCasts_S4x32_S4x1x32 : S4x32.ShapeCasts S4x1x32
  shapeCasts_S128_S1x128 : S128.ShapeCasts S1x128
  shapeCasts_S128x128_S128x4x32 : S128x128.ShapeCasts S128x4x32
  transposes_S128x4x32_S4x128x32_1_0_2 : S128x4x32.Transposes [1, 0, 2] S4x128x32
  inb_S1x16x256x128_S1x16x256x128_0_0_0_0 : ∀ a, (![0, 0, 0, 0] : Fin 4 → Nat) a + S1x16x256x128.size a ≤ S1x16x256x128.size a
  h_S1x16x256x128 : 0 < S1x16x256x128.numel
  shapeCasts_S1x16x256x128_S16x256x128 : S1x16x256x128.ShapeCasts S16x256x128
  shapeCasts_S16x256x128_S4096x128 : S16x256x128.ShapeCasts S4096x128
  bitsLt_bf16_f32 : FTy.bits .bf16 < FTy.bits .f32
  inb_S1x16x1x1x256_S1x16x1x1x256_0_0_0_0_0 : ∀ a, (![0, 0, 0, 0, 0] : Fin 5 → Nat) a + S1x16x1x1x256.size a ≤ S1x16x1x1x256.size a
  h_S1x16x1x1x256 : 0 < S1x16x1x1x256.numel
  shapeCasts_S1x16x1x1x256_S16x256 : S1x16x1x1x256.ShapeCasts S16x256
  shapeCasts_S16x256_S16x1x256 : S16x256.ShapeCasts S16x1x256
  inb_S4x32x128_S1x32x128_0_0_0 : ∀ a, (![0, 0, 0] : Fin 3 → Nat) a + S1x32x128.size a ≤ S4x32x128.size a
  h_S1x32x128 : 0 < S1x32x128.numel
  shapeCasts_S1x32x128_S32x128 : S1x32x128.ShapeCasts S32x128
  inb_S4x1x32_S1x1x32_0_0_0 : ∀ a, (![0, 0, 0] : Fin 3 → Nat) a + S1x1x32.size a ≤ S4x1x32.size a
  h_S1x1x32 : 0 < S1x1x32.numel
  shapeCasts_S1x1x32_S1x32 : S1x1x32.ShapeCasts S1x32
  transposes_S32x128_p1_0_S128x32 : S32x128.Transposes [1, 0] S128x32
  broadcasts_S1x32_S4096x32 : S1x32.Broadcasts S4096x32
  shapeCasts_S4096x32_S16x256x32 : S4096x32.ShapeCasts S16x256x32
  inb_S1x1x4x256x256_S1x1x1x256x256_0_0_0_0_0 : ∀ a, (![0, 0, 0, 0, 0] : Fin 5 → Nat) a + S1x1x1x256x256.size a ≤ S1x1x4x256x256.size a
  h_S1x1x1x256x256 : 0 < S1x1x1x256x256.numel
  shapeCasts_S1x1x1x256x256_S256x256 : S1x1x1x256x256.ShapeCasts S256x256
  shapeCasts_S256x256_S1x256x256 : S256x256.ShapeCasts S1x256x256
  broadcasts_S1x256x256_S16x256x256 : S1x256x256.Broadcasts S16x256x256
  reduces_S16x256x256_S16x256 : S16x256x256.Reduces [2] S16x256
  shapeCasts_S16x256_S16x256x1 : S16x256.ShapeCasts S16x256x1
  broadcasts_S16x256x1_S16x256x256 : S16x256x1.Broadcasts S16x256x256
  shapeCasts_S16x256x32_S4096x32 : S16x256x32.ShapeCasts S4096x32
  inb_S4x128x32_S1x128x32_0_0_0 : ∀ a, (![0, 0, 0] : Fin 3 → Nat) a + S1x128x32.size a ≤ S4x128x32.size a
  h_S1x128x32 : 0 < S1x128x32.numel
  shapeCasts_S1x128x32_S128x32 : S1x128x32.ShapeCasts S128x32
  transposes_S128x32_p1_0_S32x128 : S128x32.Transposes [1, 0] S32x128
  inb_S4x32x128_S1x32x128_1_0_0 : ∀ a, (![1, 0, 0] : Fin 3 → Nat) a + S1x32x128.size a ≤ S4x32x128.size a
  inb_S4x1x32_S1x1x32_1_0_0 : ∀ a, (![1, 0, 0] : Fin 3 → Nat) a + S1x1x32.size a ≤ S4x1x32.size a
  inb_S1x1x4x256x256_S1x1x1x256x256_0_0_1_0_0 : ∀ a, (![0, 0, 1, 0, 0] : Fin 5 → Nat) a + S1x1x1x256x256.size a ≤ S1x1x4x256x256.size a
  inb_S4x128x32_S1x128x32_1_0_0 : ∀ a, (![1, 0, 0] : Fin 3 → Nat) a + S1x128x32.size a ≤ S4x128x32.size a
  inb_S4x32x128_S1x32x128_2_0_0 : ∀ a, (![2, 0, 0] : Fin 3 → Nat) a + S1x32x128.size a ≤ S4x32x128.size a
  inb_S4x1x32_S1x1x32_2_0_0 : ∀ a, (![2, 0, 0] : Fin 3 → Nat) a + S1x1x32.size a ≤ S4x1x32.size a
  inb_S1x1x4x256x256_S1x1x1x256x256_0_0_2_0_0 : ∀ a, (![0, 0, 2, 0, 0] : Fin 5 → Nat) a + S1x1x1x256x256.size a ≤ S1x1x4x256x256.size a
  inb_S4x128x32_S1x128x32_2_0_0 : ∀ a, (![2, 0, 0] : Fin 3 → Nat) a + S1x128x32.size a ≤ S4x128x32.size a
  inb_S4x32x128_S1x32x128_3_0_0 : ∀ a, (![3, 0, 0] : Fin 3 → Nat) a + S1x32x128.size a ≤ S4x32x128.size a
  inb_S4x1x32_S1x1x32_3_0_0 : ∀ a, (![3, 0, 0] : Fin 3 → Nat) a + S1x1x32.size a ≤ S4x1x32.size a
  inb_S1x1x4x256x256_S1x1x1x256x256_0_0_3_0_0 : ∀ a, (![0, 0, 3, 0, 0] : Fin 5 → Nat) a + S1x1x1x256x256.size a ≤ S1x1x4x256x256.size a
  inb_S4x128x32_S1x128x32_3_0_0 : ∀ a, (![3, 0, 0] : Fin 3 → Nat) a + S1x128x32.size a ≤ S4x128x32.size a
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4096x128 : S1x128.Broadcasts S4096x128
  shapeCasts_S4096x128_S16x256x128 : S4096x128.ShapeCasts S16x256x128
  shapeCasts_S16x256x128_S1x16x256x128 : S16x256x128.ShapeCasts S1x16x256x128
  dot_S16x256x1_S16x1x256_S16x256x256_2_1_1_2_0_0_wf : DotDims.WF S16x256x1 S16x1x256 S16x256x256 [2] [1] [1] [2] [0] [0]
  dot_S4096x128_S128x32_S4096x32_1_0_0_1_n_n_wf : DotDims.WF S4096x128 S128x32 S4096x32 [1] [0] [0] [1] [] []
  dot_S16x256x32_S16x256x32_S16x256x256_2_2_1_1_0_0_wf : DotDims.WF S16x256x32 S16x256x32 S16x256x256 [2] [2] [1] [1] [0] [0]
  dot_S16x256x256_S16x256x32_S16x256x32_2_1_1_2_0_0_wf : DotDims.WF S16x256x256 S16x256x32 S16x256x32 [2] [1] [1] [2] [0] [0]
  dot_S4096x32_S32x128_S4096x128_1_0_0_1_n_n_wf : DotDims.WF S4096x32 S32x128 S4096x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16x256x128.size a ≤ S1x256x256x128.size a
  hwx0_0 : ∀ i : grid0.Coords, EltTy.bits .f32 = 32 ∨ (Rect.block (s := S1x256x256x128) S1x16x256x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x16x256x128.size a ≤ S1x256x256x128.size a
  hwx0_1 : ∀ i : grid0.Coords, EltTy.bits .f32 = 32 ∨ (Rect.block (s := S1x256x256x128) S1x16x256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x16x1x1x256.size a ≤ S1x256x1x1x256.size a
  hwx0_2 : ∀ i : grid0.Coords, EltTy.bits .f32 = 32 ∨ (Rect.block (s := S1x256x1x1x256) S1x16x1x1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1x4x256x256.size a ≤ S1x1x4x256x256.size a
  hwx0_3 : ∀ i : grid0.Coords, EltTy.bits .f32 = 32 ∨ (Rect.block (s := S1x1x4x256x256) S1x1x4x256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4x32x128.size a ≤ S4x32x128.size a
  hwx0_4 : ∀ i : grid0.Coords, EltTy.bits .f32 = 32 ∨ (Rect.block (s := S4x32x128) S4x32x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S4x32x128.size a ≤ S4x32x128.size a
  hwx0_5 : ∀ i : grid0.Coords, EltTy.bits .f32 = 32 ∨ (Rect.block (s := S4x32x128) S4x32x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S4x32x128.size a ≤ S4x32x128.size a
  hwx0_6 : ∀ i : grid0.Coords, EltTy.bits .f32 = 32 ∨ (Rect.block (s := S4x32x128) S4x32x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S4x32x128.size a ≤ S4x32x128.size a
  hwx0_7 : ∀ i : grid0.Coords, EltTy.bits .f32 = 32 ∨ (Rect.block (s := S4x32x128) S4x32x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S4x1x32.size a ≤ S4x1x32.size a
  hwx0_8 : ∀ i : grid0.Coords, EltTy.bits .f32 = 32 ∨ (Rect.block (s := S4x1x32) S4x1x32.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S4x128x32.size a ≤ S4x128x32.size a
  hwx0_9 : ∀ i : grid0.Coords, EltTy.bits .f32 = 32 ∨ (Rect.block (s := S4x128x32) S4x128x32.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x128.size a
  hwx0_10 : ∀ i : grid0.Coords, EltTy.bits .f32 = 32 ∨ (Rect.block (s := S1x128) S1x128.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x16x256x128.size a ≤ S1x256x256x128.size a
  hwx0_11 : ∀ i : grid0.Coords, EltTy.bits .f32 = 32 ∨ (Rect.block (s := S1x256x256x128) S1x16x256x128.size (cc0_transform_11 i) (hinb0_11 i)).WholeWords (EltTy.packing .f32)

variable [Facts₀]

def dot_S16x256x1_S16x1x256_S16x256x256_2_1_1_2_0_0 : DotDims S16x256x1 S16x1x256 S16x256x256 where
  lhsContracting := [2]
  rhsContracting := [1]
  lhsNonContracting := [1]
  rhsNonContracting := [2]
  lhsBatch := [0]
  rhsBatch := [0]
  wf := dot_S16x256x1_S16x1x256_S16x256x256_2_1_1_2_0_0_wf
def dot_S4096x128_S128x32_S4096x32_1_0_0_1_n_n : DotDims S4096x128 S128x32 S4096x32 where
  lhsContracting := [1]
  rhsContracting := [0]
  lhsNonContracting := [0]
  rhsNonContracting := [1]
  lhsBatch := []
  rhsBatch := []
  wf := dot_S4096x128_S128x32_S4096x32_1_0_0_1_n_n_wf
def dot_S16x256x32_S16x256x32_S16x256x256_2_2_1_1_0_0 : DotDims S16x256x32 S16x256x32 S16x256x256 where
  lhsContracting := [2]
  rhsContracting := [2]
  lhsNonContracting := [1]
  rhsNonContracting := [1]
  lhsBatch := [0]
  rhsBatch := [0]
  wf := dot_S16x256x32_S16x256x32_S16x256x256_2_2_1_1_0_0_wf
def dot_S16x256x256_S16x256x32_S16x256x32_2_1_1_2_0_0 : DotDims S16x256x256 S16x256x32 S16x256x32 where
  lhsContracting := [2]
  rhsContracting := [1]
  lhsNonContracting := [1]
  rhsNonContracting := [2]
  lhsBatch := [0]
  rhsBatch := [0]
  wf := dot_S16x256x256_S16x256x32_S16x256x32_2_1_1_2_0_0_wf
def dot_S4096x32_S32x128_S4096x128_1_0_0_1_n_n : DotDims S4096x32 S32x128 S4096x128 where
  lhsContracting := [1]
  rhsContracting := [0]
  lhsNonContracting := [0]
  rhsNonContracting := [1]
  lhsBatch := []
  rhsBatch := []
  wf := dot_S4096x32_S32x128_S4096x128_1_0_0_1_n_n_wf

abbrev win0_0 : Pipeline.Window sig grid0 :=
  Pipeline.Window.ofSpec (Memref.whole main_arg0) S1x16x256x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x16x256x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x16x1x1x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x1x4x256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S4x32x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S4x32x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S4x32x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S4x32x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v0) S4x1x32.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v3) S4x128x32.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v1) S1x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v4) S1x16x256x128.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S1x256x256x128 : Shape := ⟨4, ![1, 256, 256, 128]⟩
abbrev S1x256x1x1x256 : Shape := ⟨5, ![1, 256, 1, 1, 256]⟩
abbrev S1x1x4x256x256 : Shape := ⟨5, ![1, 1, 4, 256, 256]⟩
abbrev S4x32x128 : Shape := ⟨3, ![4, 32, 128]⟩
abbrev S4x32 : Shape := ⟨2, ![4, 32]⟩
abbrev S128x128 : Shape := ⟨2, ![128, 128]⟩
abbrev S128 : Shape := ⟨1, ![128]⟩
abbrev S4x32x1x256x256 : Shape := ⟨5, ![4, 32, 1, 256, 256]⟩
abbrev S1x256x4x256x32 : Shape := ⟨5, ![1, 256, 4, 256, 32]⟩
abbrev S_ : Shape := ⟨0, ![]⟩
abbrev S1x256x4x256x256 : Shape := ⟨5, ![1, 256, 4, 256, 256]⟩
abbrev S1x256x4x256 : Shape := ⟨4, ![1, 256, 4, 256]⟩
abbrev S1x256x4x256x1 : Shape := ⟨5, ![1, 256, 4, 256, 1]⟩
abbrev S1x256x256x4x32 : Shape := ⟨5, ![1, 256, 256, 4, 32]⟩
abbrev S1x1x1x4x32 : Shape := ⟨5, ![1, 1, 1, 4, 32]⟩
abbrev S1x1x1x128 : Shape := ⟨4, ![1, 1, 1, 128]⟩

abbrev nBuf : Space → Nat
  | .hbm => 59
  | .vmem => 0
  | .smem => 0
  | _ => 0

abbrev bufTy : (tb : Table) → Fin (tcTables nBuf tb) → BufTy
  | .hbm, ⟨0, _⟩ => ⟨S1x256x256x128, .f32⟩
  | .hbm, ⟨1, _⟩ => ⟨S1x256x256x128, .f32⟩
  | .hbm, ⟨2, _⟩ => ⟨S1x256x1x1x256, .f32⟩
  | .hbm, ⟨3, _⟩ => ⟨S1x1x4x256x256, .f32⟩
  | .hbm, ⟨4, _⟩ => ⟨S4x32x128, .f32⟩
  | .hbm, ⟨5, _⟩ => ⟨S4x32x128, .f32⟩
  | .hbm, ⟨6, _⟩ => ⟨S4x32x128, .f32⟩
  | .hbm, ⟨7, _⟩ => ⟨S4x32x128, .f32⟩
  | .hbm, ⟨8, _⟩ => ⟨S4x32, .f32⟩
  | .hbm, ⟨9, _⟩ => ⟨S128x128, .f32⟩
  | .hbm, ⟨10, _⟩ => ⟨S128, .f32⟩
  | .hbm, ⟨11, _⟩ => ⟨S4x32x1x256x256, .f32⟩
  | .hbm, ⟨12, _⟩ => ⟨S1x256x4x256x32, .f32⟩
  | .hbm, ⟨13, _⟩ => ⟨S_, .f32⟩
  | .hbm, ⟨14, _⟩ => ⟨S1x256x4x256x32, .f32⟩
  | .hbm, ⟨15, _⟩ => ⟨S1x256x4x256x32, .f32⟩
  | .hbm, ⟨16, _⟩ => ⟨S4x32x1x256x256, .f32⟩
  | .hbm, ⟨17, _⟩ => ⟨S1x256x4x256x32, .f32⟩
  | .hbm, ⟨18, _⟩ => ⟨S4x32x1x256x256, .f32⟩
  | .hbm, ⟨19, _⟩ => ⟨S1x256x4x256x32, .f32⟩
  | .hbm, ⟨20, _⟩ => ⟨S1x256x4x256x256, .f32⟩
  | .hbm, ⟨21, _⟩ => ⟨S1x256x4x256x256, .f32⟩
  | .hbm, ⟨22, _⟩ => ⟨S1x256x4x256x256, .f32⟩
  | .hbm, ⟨23, _⟩ => ⟨S1x256x4x256x256, .f32⟩
  | .hbm, ⟨24, _⟩ => ⟨S1x256x4x256x256, .f32⟩
  | .hbm, ⟨25, _⟩ => ⟨S_, .f32⟩
  | .hbm, ⟨26, _⟩ => ⟨S1x256x4x256, .f32⟩
  | .hbm, ⟨27, _⟩ => ⟨S_, .f32⟩
  | .hbm, ⟨28, _⟩ => ⟨S1x256x4x256, .f32⟩
  | .hbm, ⟨29, _⟩ => ⟨S1x256x4x256, .f32⟩
  | .hbm, ⟨30, _⟩ => ⟨S1x256x4x256x1, .f32⟩
  | .hbm, ⟨31, _⟩ => ⟨S1x256x4x256x256, .f32⟩
  | .hbm, ⟨32, _⟩ => ⟨S1x256x4x256x256, .f32⟩
  | .hbm, ⟨33, _⟩ => ⟨S1x256x4x256x256, .f32⟩
  | .hbm, ⟨34, _⟩ => ⟨S_, .f32⟩
  | .hbm, ⟨35, _⟩ => ⟨S1x256x4x256, .f32⟩
  | .hbm, ⟨36, _⟩ => ⟨S1x256x4x256x1, .f32⟩
  | .hbm, ⟨37, _⟩ => ⟨S1x256x4x256x256, .f32⟩
  | .hbm, ⟨38, _⟩ => ⟨S1x256x4x256x256, .f32⟩
  | .hbm, ⟨39, _⟩ => ⟨S1x256x4x256x32, .f32⟩
  | .hbm, ⟨40, _⟩ => ⟨S1x256x256x4x32, .f32⟩
  | .hbm, ⟨41, _⟩ => ⟨S1x256x256x4x32, .f32⟩
  | .hbm, ⟨42, _⟩ => ⟨S1x1x1x4x32, .f32⟩
  | .hbm, ⟨43, _⟩ => ⟨S1x256x256x4x32, .f32⟩
  | .hbm, ⟨44, _⟩ => ⟨S1x256x256x4x32, .f32⟩
  | .hbm, ⟨45, _⟩ => ⟨S1x256x256x4x32, .f32⟩
  | .hbm, ⟨46, _⟩ => ⟨S1x256x256x4x32, .f32⟩
  | .hbm, ⟨47, _⟩ => ⟨S_, .f32⟩
  | .hbm, ⟨48, _⟩ => ⟨S1x256x256x4x32, .f32⟩
  | .hbm, ⟨49, _⟩ => ⟨S1x256x256x4x32, .f32⟩
  | .hbm, ⟨50, _⟩ => ⟨S_, .f32⟩
  | .hbm, ⟨51, _⟩ => ⟨S1x256x256x4x32, .f32⟩
  | .hbm, ⟨52, _⟩ => ⟨S1x256x256x4x32, .f32⟩
  | .hbm, ⟨53, _⟩ => ⟨S1x256x256x4x32, .f32⟩
  | .hbm, ⟨54, _⟩ => ⟨S1x256x256x128, .f32⟩
  | .hbm, ⟨55, _⟩ => ⟨S1x256x256x128, .f32⟩
  | .hbm, ⟨56, _⟩ => ⟨S1x1x1x128, .f32⟩
  | .hbm, ⟨57, _⟩ => ⟨S1x256x256x128, .f32⟩
  | .hbm, ⟨58, _⟩ => ⟨S1x256x256x128, .f32⟩
  | _, _ => ⟨S1x256x256x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_0 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_2 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_3 : Ref sig .tc := ⟨.hbm, 47, rfl⟩
abbrev main_v32 : Ref sig .tc := ⟨.hbm, 48, rfl⟩
abbrev main_v33 : Ref sig .tc := ⟨.hbm, 49, rfl⟩
abbrev main_cst_4 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩

abbrev nD : Nat := 1
abbrev τ : Topo := Topo.v7x

variable {F : FTy → Type} [FloatOps F]

class Facts₀ : Prop where
  transposes_S4x32x1x256x256_S1x256x4x256x32_2_3_0_4_1 : S4x32x1x256x256.Transposes [2, 3, 0, 4, 1] S1x256x4x256x32
  bcast_S_S1x256x4x256x32 : S_.BroadcastsInDim S1x256x4x256x32 (![] : Fin 0 → Fin S1x256x4x256x32.rank)
  bcast_S1x256x1x1x256_S1x256x4x256x256_0_1_2_3_4 : S1x256x1x1x256.BroadcastsInDim S1x256x4x256x256 (![0, 1, 2, 3, 4] : Fin 5 → Fin S1x256x4x256x256.rank)
  bcast_S1x1x4x256x256_S1x256x4x256x256_0_1_2_3_4 : S1x1x4x256x256.BroadcastsInDim S1x256x4x256x256 (![0, 1, 2, 3, 4] : Fin 5 → Fin S1x256x4x256x256.rank)
  reducesTo_S1x256x4x256x256_S1x256x4x256_d4 : S1x256x4x256x256.ReducesTo [4] S1x256x4x256
  h_S_ : 0 < S_.numel
  bcast_S_S1x256x4x256 : S_.BroadcastsInDim S1x256x4x256 (![] : Fin 0 → Fin S1x256x4x256.rank)
  bcast_S1x256x4x256_S1x256x4x256x1_0_1_2_3 : S1x256x4x256.BroadcastsInDim S1x256x4x256x1 (![0, 1, 2, 3] : Fin 4 → Fin S1x256x4x256x1.rank)
  bcast_S1x256x4x256x1_S1x256x4x256x256_0_1_2_3_4 : S1x256x4x256x1.BroadcastsInDim S1x256x4x256x256 (![0, 1, 2, 3, 4] : Fin 5 → Fin S1x256x4x256x256.rank)
  transposes_S1x256x4x256x32_S1x256x256x4x32_0_1_3_2_4 : S1x256x4x256x32.Transposes [0, 1, 3, 2, 4] S1x256x256x4x32
  bcast_S4x32_S1x1x1x4x32_3_4 : S4x32.BroadcastsInDim S1x1x1x4x32 (![3, 4] : Fin 2 → Fin S1x1x1x4x32.rank)
  bcast_S1x1x1x4x32_S1x256x256x4x32_0_1_2_3_4 : S1x1x1x4x32.BroadcastsInDim S1x256x256x4x32 (![0, 1, 2, 3, 4] : Fin 5 → Fin S1x256x256x4x32.rank)
  bcast_S_S1x256x256x4x32 : S_.BroadcastsInDim S1x256x256x4x32 (![] : Fin 0 → Fin S1x256x256x4x32.rank)
  shapeCasts_S1x256x256x4x32_S1x256x256x128 : S1x256x256x4x32.ShapeCasts S1x256x256x128
  bcast_S128_S1x1x1x128_3 : S128.BroadcastsInDim S1x1x1x128 (![3] : Fin 1 → Fin S1x1x1x128.rank)
  bcast_S1x1x1x128_S1x256x256x128_0_1_2_3 : S1x1x1x128.BroadcastsInDim S1x256x256x128 (![0, 1, 2, 3] : Fin 4 → Fin S1x256x256x128.rank)
  dot_S4x32x128_S1x256x256x128_S4x32x1x256x256_2_3_01_012_n_n_wf : DotDims.WF S4x32x128 S1x256x256x128 S4x32x1x256x256 [2] [3] [0, 1] [0, 1, 2] [] []
  dot_S1x256x4x256x32_S1x256x4x256x32_S1x256x4x256x256_4_4_3_3_012_012_wf : DotDims.WF S1x256x4x256x32 S1x256x4x256x32 S1x256x4x256x256 [4] [4] [3] [3] [0, 1, 2] [0, 1, 2]
  dot_S1x256x4x256x256_S1x256x4x256x32_S1x256x4x256x32_4_3_3_4_012_012_wf : DotDims.WF S1x256x4x256x256 S1x256x4x256x32 S1x256x4x256x32 [4] [3] [3] [4] [0, 1, 2] [0, 1, 2]
  dot_S1x256x256x128_S4x32x128_S1x256x256x4x32_3_2_012_01_n_n_wf : DotDims.WF S1x256x256x128 S4x32x128 S1x256x256x4x32 [3] [2] [0, 1, 2] [0, 1] [] []
  dot_S1x256x256x128_S128x128_S1x256x256x128_3_1_012_0_n_n_wf : DotDims.WF S1x256x256x128 S128x128 S1x256x256x128 [3] [1] [0, 1, 2] [0] [] []

variable [Facts₀]

def dot_S4x32x128_S1x256x256x128_S4x32x1x256x256_2_3_01_012_n_n : DotDims S4x32x128 S1x256x256x128 S4x32x1x256x256 where
  lhsContracting := [2]
  rhsContracting := [3]
  lhsNonContracting := [0, 1]
  rhsNonContracting := [0, 1, 2]
  lhsBatch := []
  rhsBatch := []
  wf := dot_S4x32x128_S1x256x256x128_S4x32x1x256x256_2_3_01_012_n_n_wf
def dot_S1x256x4x256x32_S1x256x4x256x32_S1x256x4x256x256_4_4_3_3_012_012 : DotDims S1x256x4x256x32 S1x256x4x256x32 S1x256x4x256x256 where
  lhsContracting := [4]
  rhsContracting := [4]
  lhsNonContracting := [3]
  rhsNonContracting := [3]
  lhsBatch := [0, 1, 2]
  rhsBatch := [0, 1, 2]
  wf := dot_S1x256x4x256x32_S1x256x4x256x32_S1x256x4x256x256_4_4_3_3_012_012_wf
def dot_S1x256x4x256x256_S1x256x4x256x32_S1x256x4x256x32_4_3_3_4_012_012 : DotDims S1x256x4x256x256 S1x256x4x256x32 S1x256x4x256x32 where
  lhsContracting := [4]
  rhsContracting := [3]
  lhsNonContracting := [3]
  rhsNonContracting := [4]
  lhsBatch := [0, 1, 2]
  rhsBatch := [0, 1, 2]
  wf := dot_S1x256x4x256x256_S1x256x4x256x32_S1x256x4x256x32_4_3_3_4_012_012_wf
def dot_S1x256x256x128_S4x32x128_S1x256x256x4x32_3_2_012_01_n_n : DotDims S1x256x256x128 S4x32x128 S1x256x256x4x32 where
  lhsContracting := [3]
  rhsContracting := [2]
  lhsNonContracting := [0, 1, 2]
  rhsNonContracting := [0, 1]
  lhsBatch := []
  rhsBatch := []
  wf := dot_S1x256x256x128_S4x32x128_S1x256x256x4x32_3_2_012_01_n_n_wf
def dot_S1x256x256x128_S128x128_S1x256x256x128_3_1_012_0_n_n : DotDims S1x256x256x128 S128x128 S1x256x256x128 where
  lhsContracting := [3]
  rhsContracting := [1]
  lhsNonContracting := [0, 1, 2]
  rhsNonContracting := [0]
  lhsBatch := []
  rhsBatch := []
  wf := dot_S1x256x256x128_S128x128_S1x256x256x128_3_1_012_0_n_n_wf

class Facts : Prop extends Facts₀ where

variable [Facts]
-- ==== Proof.Spec.lean ====
/-
  The mathematics shared by the two programs: gated multi-head attention along one row of a pair representation.

  For one row n and one head h, with x_q, x_kv : 256 × 128 the row's query and key/value activations, a mask row, a
  bias matrix tr : 256 × 256 and the head's weights w_q, w_k, w_v, w_g : 32 × 128, b_g : 32:

    lin x w        = Σ_c x c · w c                                   (a projection's entry)
    logit q k      = (Σ_d (lin (x_q q) (w_q d) · s) · lin (x_kv k) (w_k d)) + mask q k + tr q k
    smax z k       = exp (z k − M) / Σ_k' exp (z k' − M),   M = max (−∞) (max_k z k)
    og q d         = (Σ_k smax (logit q ·) k · lin (x_kv k) (w_v d)) · logistic (lin (x_q q) (w_g d) + b_g d)

  all on the extended reals, each operation the exact one, in the order both programs apply them. The output entry
  (q, c) is the product of the 128 gated features (h, d) with a row of the output weights, plus a bias: one program adds
  the four heads' partial sums one after the other onto zero, the other takes one sum over the 128 features
  e = 32 h + d. The two agree because addition of extended reals is commutative and associative; nothing here needs
  a finite operand.
-/
import Idealize.ShloMosaic.PureOps.Ideal
import Idealize.ShloMosaic.PureOps.Ideal.Laws
import Idealize.ShloMosaic.Lib.ValueIdx
import Mathlib.Algebra.BigOperators.Fin
import Mathlib.Logic.Equiv.Fin.Basic

noncomputable section

open scoped BigOperators

namespace Cert.Attn

open Idealize.ShloMosaic

/-- The scale both programs multiply the query projection by: the binary value of the word they share. -/
def sc : EReal := Ideal.ofBits .f32 0x3E3504F3#32

/-- The value both programs start a row's maximum from: the word of −∞. -/
def ninf : EReal := Ideal.ofBits .f32 0xFF800000#32

/-- One entry of a projection: the contraction of an activation row with a weight row over the 128 channels. -/
def lin (x w : Fin 128 → EReal) : EReal := ∑ c : Fin 128, x c * w c

/-- The softmax of a row of 256 logits, as both programs compute it: subtract the row's maximum (started from −∞ and
    compared with −∞ once more), exponentiate, divide by the row's sum. -/
def smax (z : Fin 256 → EReal) (k : Fin 256) : EReal :=
  Ideal.div (Ideal.exp (z k - max ninf (Finset.univ.fold max ninf z)))
    (∑ k' : Fin 256, Ideal.exp (z k' - max ninf (Finset.univ.fold max ninf z)))

section Head

variable (xq xkv : Fin 256 → Fin 128 → EReal) (msk tr : Fin 256 → Fin 256 → EReal)
  (wq wk wv wg : Fin 32 → Fin 128 → EReal) (bg : Fin 32 → EReal)

/-- The attention logit of query position q against key position k for one head: scaled query · key, plus the mask,
    plus the pair bias, added in that order. -/
def logit (q k : Fin 256) : EReal :=
  ((∑ d : Fin 32, (lin (xq q) (wq d) * sc) * lin (xkv k) (wk d)) + msk q k) + tr q k

/-- One head's gated output feature d at query position q: the attention-weighted values times the sigmoid gate. -/
def og (q : Fin 256) (d : Fin 32) : EReal :=
  (∑ k : Fin 256, smax (logit xq xkv msk tr wq wk q) k * lin (xkv k) (wv d))
    * Ideal.logistic (lin (xq q) (wg d) + bg d)

end Head

/-- Feature e = 32 h + d of the 128 concatenated head features. -/
def feat (h : Fin 4) (d : Fin 32) : Fin 128 := ⟨h.val * 32 + d.val, by have := h.isLt; have := d.isLt; omega⟩

/-- The head of feature e. -/
def headOf (e : Fin 128) : Fin 4 := ⟨e.val / 32, by have := e.isLt; omega⟩
/-- The place of feature e inside its head. -/
def subOf (e : Fin 128) : Fin 32 := ⟨e.val % 32, Nat.mod_lt _ (by decide)⟩

theorem headOf_feat (h : Fin 4) (d : Fin 32) : headOf (feat h d) = h :=
  Fin.ext (by show (h.val * 32 + d.val) / 32 = h.val; have := d.isLt; omega)
theorem subOf_feat (h : Fin 4) (d : Fin 32) : subOf (feat h d) = d :=
  Fin.ext (by show (h.val * 32 + d.val) % 32 = d.val; have := d.isLt; omega)
theorem feat_headOf_subOf (e : Fin 128) : feat (headOf e) (subOf e) = e :=
  Fin.ext (by show e.val / 32 * 32 + e.val % 32 = e.val; omega)

/-- A sum over the 128 features is the sum over the four heads of the sums over each head's 32 features. -/
theorem sum_feat {M : Type*} [AddCommMonoid M] (f : Fin 128 → M) :
    ∑ e : Fin 128, f e = ∑ h : Fin 4, ∑ d : Fin 32, f (feat h d) := by
  rw [← Fintype.sum_prod_type (f := fun p : Fin 4 × Fin 32 => f (feat p.1 p.2))]
  refine (Equiv.sum_comp (finProdFinEquiv (m := 4) (n := 32)) f).symm.trans ?_
  refine Finset.sum_congr rfl fun p _ => congrArg f (Fin.ext ?_)
  show p.2.val + 32 * p.1.val = p.1.val * 32 + p.2.val
  omega

/-- The output entry as the head-by-head program forms it: zero, plus each head's 32 products in turn, plus the bias.
    `g h d` is head h's gated feature d, `w h d` the output weight that multiplies it. -/
def outAcc (g w : Fin 4 → Fin 32 → EReal) (b : EReal) : EReal :=
  ((((0 + ∑ d : Fin 32, g 0 d * w 0 d) + ∑ d : Fin 32, g 1 d * w 1 d)
      + ∑ d : Fin 32, g 2 d * w 2 d) + ∑ d : Fin 32, g 3 d * w 3 d) + b

/-- The output entry as the whole-array program forms it: one sum over the 128 features, plus the bias. -/
def outSum (g w : Fin 4 → Fin 32 → EReal) (b : EReal) : EReal :=
  (∑ e : Fin 128, g (headOf e) (subOf e) * w (headOf e) (subOf e)) + b

/-- The two forms are one extended real: regroup the 128 features by head. -/
theorem outAcc_eq_outSum (g w : Fin 4 → Fin 32 → EReal) (b : EReal) : outAcc g w b = outSum g w b := by
  unfold outAcc outSum
  rw [sum_feat, Fin.sum_univ_four, zero_add]
  simp only [headOf_feat, subOf_feat]

/-! ## The result array as one function of the argument arrays -/

section Whole

open Idealize.ShloMosaic.ValueIdx

/-- An argument array of f32 at the extended reals, by its literal shape. -/
abbrev Arr (s : Shape) : Type := (⟨s, .f32⟩ : BufTy).Contents (Elt Ideal)

variable (a0 a1 : Arr ⟨4, ![1, 256, 256, 128]⟩) (a2 : Arr ⟨5, ![1, 256, 1, 1, 256]⟩) (a3 : Arr ⟨5, ![1, 1, 4, 256, 256]⟩)
  (a4 a5 a6 a7 : Arr ⟨3, ![4, 32, 128]⟩) (a8 : Arr ⟨2, ![4, 32]⟩) (a9 : Arr ⟨2, ![128, 128]⟩) (a10 : Arr ⟨1, ![128]⟩)

/-- Head h's gated feature d at row n, query position q, from the argument arrays: row n of the two activations, row n
    of the mask (the same for every query position), head h's pair bias and head h's slices of the weights. -/
def ogA (n : Fin 256) (h : Fin 4) (q : Fin 256) (d : Fin 32) : EReal :=
  og (fun q c => a0 (ix4 0 n q c)) (fun k c => a1 (ix4 0 n k c)) (fun _ k => a2 (ix5 0 n 0 0 k))
    (fun q k => a3 (ix5 0 0 h q k)) (fun d c => a4 (ix3 h d c)) (fun d c => a5 (ix3 h d c)) (fun d c => a6 (ix3 h d c))
    (fun d c => a7 (ix3 h d c)) (fun d => a8 (ix2 h d)) q d

/-- Entry (0, n, q, c) of the result: the gated features of row n at q against row c of the output weights (feature
    e = 32 h + d in column e), plus the output bias, accumulated head by head. -/
def G : Arr ⟨4, ![1, 256, 256, 128]⟩ := fun i =>
  outAcc (fun h d => ogA a0 a1 a2 a3 a4 a5 a6 a7 a8 ⟨(i 1).val, (i 1).isLt⟩ h ⟨(i 2).val, (i 2).isLt⟩ d)
    (fun h d => a9 (ix2 ⟨(i 3).val, (i 3).isLt⟩ (feat h d))) (a10 (ix1 ⟨(i 3).val, (i 3).isLt⟩))

theorem G_apply (n q : Fin 256) (c : Fin 128) :
    G a0 a1 a2 a3 a4 a5 a6 a7 a8 a9 a10 (ix4 0 n q c)
      = outAcc (fun h d => ogA a0 a1 a2 a3 a4 a5 a6 a7 a8 n h q d) (fun h d => a9 (ix2 c (feat h d))) (a10 (ix1 c)) := rfl

/-- Two arrays of the result's shape are equal when they agree at every (0, n, q, c). -/
theorem arr_ext {x y : Arr ⟨4, ![1, 256, 256, 128]⟩} (h : ∀ (n q : Fin 256) (c : Fin 128), x (ix4 0 n q c) = y (ix4 0 n q c)) :
    x = y := by
  funext i
  obtain ⟨a, n, q, c, rfl⟩ : ∃ (a : Fin 1) (n q : Fin 256) (c : Fin 128), i = ix4 a n q c := ⟨i 0, i 1, i 2, i 3, eq_ix4 i⟩
  obtain rfl : a = 0 := Subsingleton.elim _ _
  exact h n q c

end Whole

end Cert.Attn

end
-- ==== Proof.KMat.lean ====
/-
  Each matrix product of the attention body read at one output entry, on the extended reals: the product into a zero
  accumulator is the sum over the contracted coordinate of the operands' products. The five shapes of product the body
  uses: a projection x · wᵀ (4096×128 by the transpose of 32×128), the output projection o · wᵀ (4096×32 by the
  transpose of 128×32), and three products batched over the 16 rows of a block — the mask row spread over the 256
  query positions (a contraction over ONE coordinate: 1 · mask), query · key over the 32 features, and
  probabilities · values over the 256 key positions.
-/
import proofs.«423711_j1065151889535_3_alg».proof.Proof.Gen.KernelIdeal.Skeleton
import Idealize.ShloMosaic.PureOps.Ideal.Laws
import Idealize.ShloMosaic.Lib.ValueIdx
import Idealize.ShloMosaic.Lib.Pipeline.Value

noncomputable section

open scoped BigOperators

namespace Cert.KernelIdeal.Attn

open Cert.KernelIdeal Cert.KernelIdeal.Gen Idealize.ShloMosaic Idealize.ShloMosaic.ValueIdx

/-! The operand coordinates of the projection product: at output index i and contraction position q, the left operand is read at (i 0, q); the right at (q, i 1). -/
private theorem proj_lhs_0 (i : S4096x32.Idx) (q : dot_S4096x128_S128x32_S4096x32_1_0_0_1_n_n.contr.Idx) :
    (dot_S4096x128_S128x32_S4096x32_1_0_0_1_n_n.lhsIdx i q 0).val = (i 0).val := by
  unfold DotDims.lhsIdx
  rw [dif_neg (show ¬(0 : Fin S4096x128.rank) ∈ dot_S4096x128_S128x32_S4096x32_1_0_0_1_n_n.lhsBatch by decide), dif_pos (show (0 : Fin S4096x128.rank) ∈ dot_S4096x128_S128x32_S4096x32_1_0_0_1_n_n.lhsNonContracting by decide)]
  rfl
private theorem proj_lhs_1 (i : S4096x32.Idx) (q : dot_S4096x128_S128x32_S4096x32_1_0_0_1_n_n.contr.Idx) :
    (dot_S4096x128_S128x32_S4096x32_1_0_0_1_n_n.lhsIdx i q 1).val = (q ⟨0, by decide⟩).val :=
  dot_S4096x128_S128x32_S4096x32_1_0_0_1_n_n.lhsIdx_val_of_single rfl i q
private theorem proj_rhs_0 (i : S4096x32.Idx) (q : dot_S4096x128_S128x32_S4096x32_1_0_0_1_n_n.contr.Idx) :
    (dot_S4096x128_S128x32_S4096x32_1_0_0_1_n_n.rhsIdx i q 0).val = (q ⟨0, by decide⟩).val :=
  dot_S4096x128_S128x32_S4096x32_1_0_0_1_n_n.rhsIdx_val_of_single rfl i q
private theorem proj_rhs_1 (i : S4096x32.Idx) (q : dot_S4096x128_S128x32_S4096x32_1_0_0_1_n_n.contr.Idx) :
    (dot_S4096x128_S128x32_S4096x32_1_0_0_1_n_n.rhsIdx i q 1).val = (i 1).val := by
  unfold DotDims.rhsIdx
  rw [dif_neg (show ¬(1 : Fin S128x32.rank) ∈ dot_S4096x128_S128x32_S4096x32_1_0_0_1_n_n.rhsBatch by decide), dif_pos (show (1 : Fin S128x32.rank) ∈ dot_S4096x128_S128x32_S4096x32_1_0_0_1_n_n.rhsNonContracting by decide)]
  rfl

/-- A projection's entry (p, d): the sum over the 128 channels of activation (p, c) times weight (d, c). -/
theorem proj_apply (x : FVec Ideal S4096x128 .bf16) (w : FVec Ideal S32x128 .bf16) (p : Fin 4096) (d : Fin 32) :
    matmul dot_S4096x128_S128x32_S4096x32_1_0_0_1_n_n none x (transpose S128x32 [1, 0] w transposes_S32x128_p1_0_S128x32)
        (constant S4096x32 .f32 0x00000000#32) (ix2 p d)
      = ∑ c : Fin 128, x (ix2 p c) * w (ix2 d c) := by
  simp only [matmul]
  rw [Ideal.matmul_constant_zero_apply, ← Equiv.sum_comp (ValueIdx.contrEquiv1 dot_S4096x128_S128x32_S4096x32_1_0_0_1_n_n 128 rfl rfl).symm]
  refine Finset.sum_congr rfl fun t _ => ?_
  have hk := ValueIdx.contrEquiv1_symm_val dot_S4096x128_S128x32_S4096x32_1_0_0_1_n_n 128 rfl rfl t
  have el : dot_S4096x128_S128x32_S4096x32_1_0_0_1_n_n.lhsIdx (ix2 p d) ((ValueIdx.contrEquiv1 dot_S4096x128_S128x32_S4096x32_1_0_0_1_n_n 128 rfl rfl).symm t) = ix2 p t := funext fun a => Fin.ext (by
    match a with
    | ⟨0, _⟩ => exact proj_lhs_0 _ _
    | ⟨1, _⟩ => exact (proj_lhs_1 _ _).trans hk)
  have er : dot_S4096x128_S128x32_S4096x32_1_0_0_1_n_n.rhsIdx (ix2 p d) ((ValueIdx.contrEquiv1 dot_S4096x128_S128x32_S4096x32_1_0_0_1_n_n 128 rfl rfl).symm t) = ix2 t d := funext fun a => Fin.ext (by
    match a with
    | ⟨0, _⟩ => exact (proj_rhs_0 _ _).trans hk
    | ⟨1, _⟩ => exact proj_rhs_1 _ _)
  rw [el, er]
  exact congrArg (x (ix2 p t) * ·) (transpose_apply [1, 0] w transposes_S32x128_p1_0_S128x32 (ix2 t d) (ix2 d t)
    (fun b => match b with | ⟨0, _⟩ => rfl | ⟨1, _⟩ => rfl))

/-! The operand coordinates of the output projection product: at output index i and contraction position q, the left operand is read at (i 0, q); the right at (q, i 1). -/
private theorem oproj_lhs_0 (i : S4096x128.Idx) (q : dot_S4096x32_S32x128_S4096x128_1_0_0_1_n_n.contr.Idx) :
    (dot_S4096x32_S32x128_S4096x128_1_0_0_1_n_n.lhsIdx i q 0).val = (i 0).val := by
  unfold DotDims.lhsIdx
  rw [dif_neg (show ¬(0 : Fin S4096x32.rank) ∈ dot_S4096x32_S32x128_S4096x128_1_0_0_1_n_n.lhsBatch by decide), dif_pos (show (0 : Fin S4096x32.rank) ∈ dot_S4096x32_S32x128_S4096x128_1_0_0_1_n_n.lhsNonContracting by decide)]
  rfl
private theorem oproj_lhs_1 (i : S4096x128.Idx) (q : dot_S4096x32_S32x128_S4096x128_1_0_0_1_n_n.contr.Idx) :
    (dot_S4096x32_S32x128_S4096x128_1_0_0_1_n_n.lhsIdx i q 1).val = (q ⟨0, by decide⟩).val :=
  dot_S4096x32_S32x128_S4096x128_1_0_0_1_n_n.lhsIdx_val_of_single rfl i q
private theorem oproj_rhs_0 (i : S4096x128.Idx) (q : dot_S4096x32_S32x128_S4096x128_1_0_0_1_n_n.contr.Idx) :
    (dot_S4096x32_S32x128_S4096x128_1_0_0_1_n_n.rhsIdx i q 0).val = (q ⟨0, by decide⟩).val :=
  dot_S4096x32_S32x128_S4096x128_1_0_0_1_n_n.rhsIdx_val_of_single rfl i q
private theorem oproj_rhs_1 (i : S4096x128.Idx) (q : dot_S4096x32_S32x128_S4096x128_1_0_0_1_n_n.contr.Idx) :
    (dot_S4096x32_S32x128_S4096x128_1_0_0_1_n_n.rhsIdx i q 1).val = (i 1).val := by
  unfold DotDims.rhsIdx
  rw [dif_neg (show ¬(1 : Fin S32x128.rank) ∈ dot_S4096x32_S32x128_S4096x128_1_0_0_1_n_n.rhsBatch by decide), dif_pos (show (1 : Fin S32x128.rank) ∈ dot_S4096x32_S32x128_S4096x128_1_0_0_1_n_n.rhsNonContracting by decide)]
  rfl

/-- The output projection's entry (p, c): the sum over a head's 32 features of feature (p, d) times weight (c, d). -/
theorem oproj_apply (o : FVec Ideal S4096x32 .bf16) (w : FVec Ideal S128x32 .bf16) (p : Fin 4096) (c : Fin 128) :
    matmul dot_S4096x32_S32x128_S4096x128_1_0_0_1_n_n none o (transpose S32x128 [1, 0] w transposes_S128x32_p1_0_S32x128)
        (constant S4096x128 .f32 0x00000000#32) (ix2 p c)
      = ∑ d : Fin 32, o (ix2 p d) * w (ix2 c d) := by
  simp only [matmul]
  rw [Ideal.matmul_constant_zero_apply, ← Equiv.sum_comp (ValueIdx.contrEquiv1 dot_S4096x32_S32x128_S4096x128_1_0_0_1_n_n 32 rfl rfl).symm]
  refine Finset.sum_congr rfl fun t _ => ?_
  have hk := ValueIdx.contrEquiv1_symm_val dot_S4096x32_S32x128_S4096x128_1_0_0_1_n_n 32 rfl rfl t
  have el : dot_S4096x32_S32x128_S4096x128_1_0_0_1_n_n.lhsIdx (ix2 p c) ((ValueIdx.contrEquiv1 dot_S4096x32_S32x128_S4096x128_1_0_0_1_n_n 32 rfl rfl).symm t) = ix2 p t := funext fun a => Fin.ext (by
    match a with
    | ⟨0, _⟩ => exact oproj_lhs_0 _ _
    | ⟨1, _⟩ => exact (oproj_lhs_1 _ _).trans hk)
  have er : dot_S4096x32_S32x128_S4096x128_1_0_0_1_n_n.rhsIdx (ix2 p c) ((ValueIdx.contrEquiv1 dot_S4096x32_S32x128_S4096x128_1_0_0_1_n_n 32 rfl rfl).symm t) = ix2 t c := funext fun a => Fin.ext (by
    match a with
    | ⟨0, _⟩ => exact (oproj_rhs_0 _ _).trans hk
    | ⟨1, _⟩ => exact oproj_rhs_1 _ _)
  rw [el, er]
  exact congrArg (o (ix2 p t) * ·) (transpose_apply [1, 0] w transposes_S128x32_p1_0_S32x128 (ix2 t c) (ix2 c t)
    (fun b => match b with | ⟨0, _⟩ => rfl | ⟨1, _⟩ => rfl))

/-! The operand coordinates of the mask product, batched over the rows: at output index i and contraction position q, the left operand is read at (i 0, i 1, q); the right at (i 0, q, i 2). -/
private theorem mask_lhs_0 (i : S16x256x256.Idx) (q : dot_S16x256x1_S16x1x256_S16x256x256_2_1_1_2_0_0.contr.Idx) :
    (dot_S16x256x1_S16x1x256_S16x256x256_2_1_1_2_0_0.lhsIdx i q 0).val = (i 0).val := by
  unfold DotDims.lhsIdx
  rw [dif_pos (show (0 : Fin S16x256x1.rank) ∈ dot_S16x256x1_S16x1x256_S16x256x256_2_1_1_2_0_0.lhsBatch by decide)]
  rfl
private theorem mask_lhs_1 (i : S16x256x256.Idx) (q : dot_S16x256x1_S16x1x256_S16x256x256_2_1_1_2_0_0.contr.Idx) :
    (dot_S16x256x1_S16x1x256_S16x256x256_2_1_1_2_0_0.lhsIdx i q 1).val = (i 1).val := by
  unfold DotDims.lhsIdx
  rw [dif_neg (show ¬(1 : Fin S16x256x1.rank) ∈ dot_S16x256x1_S16x1x256_S16x256x256_2_1_1_2_0_0.lhsBatch by decide), dif_pos (show (1 : Fin S16x256x1.rank) ∈ dot_S16x256x1_S16x1x256_S16x256x256_2_1_1_2_0_0.lhsNonContracting by decide)]
  rfl
private theorem mask_lhs_2 (i : S16x256x256.Idx) (q : dot_S16x256x1_S16x1x256_S16x256x256_2_1_1_2_0_0.contr.Idx) :
    (dot_S16x256x1_S16x1x256_S16x256x256_2_1_1_2_0_0.lhsIdx i q 2).val = (q ⟨0, by decide⟩).val :=
  dot_S16x256x1_S16x1x256_S16x256x256_2_1_1_2_0_0.lhsIdx_val_of_single rfl i q
private theorem mask_rhs_0 (i : S16x256x256.Idx) (q : dot_S16x256x1_S16x1x256_S16x256x256_2_1_1_2_0_0.contr.Idx) :
    (dot_S16x256x1_S16x1x256_S16x256x256_2_1_1_2_0_0.rhsIdx i q 0).val = (i 0).val := by
  unfold DotDims.rhsIdx
  rw [dif_pos (show (0 : Fin S16x1x256.rank) ∈ dot_S16x256x1_S16x1x256_S16x256x256_2_1_1_2_0_0.rhsBatch by decide)]
  rfl
private theorem mask_rhs_1 (i : S16x256x256.Idx) (q : dot_S16x256x1_S16x1x256_S16x256x256_2_1_1_2_0_0.contr.Idx) :
    (dot_S16x256x1_S16x1x256_S16x256x256_2_1_1_2_0_0.rhsIdx i q 1).val = (q ⟨0, by decide⟩).val :=
  dot_S16x256x1_S16x1x256_S16x256x256_2_1_1_2_0_0.rhsIdx_val_of_single rfl i q
private theorem mask_rhs_2 (i : S16x256x256.Idx) (q : dot_S16x256x1_S16x1x256_S16x256x256_2_1_1_2_0_0.contr.Idx) :
    (dot_S16x256x1_S16x1x256_S16x256x256_2_1_1_2_0_0.rhsIdx i q 2).val = (i 2).val := by
  unfold DotDims.rhsIdx
  rw [dif_neg (show ¬(2 : Fin S16x1x256.rank) ∈ dot_S16x256x1_S16x1x256_S16x256x256_2_1_1_2_0_0.rhsBatch by decide), dif_pos (show (2 : Fin S16x1x256.rank) ∈ dot_S16x256x1_S16x1x256_S16x256x256_2_1_1_2_0_0.rhsNonContracting by decide)]
  rfl

/-- The mask spread over the query positions: entry (n, q, k) is the mask of row n at key position k (the product
    with the column of ones contracts over one coordinate, and 1 · x = x, 0 + x = x on the extended reals). -/
theorem mask_apply (P2 : Vec Ideal S1x16x1x1x256 .f32) (n : Fin 16) (q k : Fin 256) :
    k0_pay4 P2 (ix3 n q k) = P2 (ix5 0 n 0 0 k) := by
  unfold k0_pay4
  simp only [matmul]
  rw [Ideal.matmul_constant_zero_apply, ← Equiv.sum_comp (ValueIdx.contrEquiv1 dot_S16x256x1_S16x1x256_S16x256x256_2_1_1_2_0_0 1 rfl rfl).symm, Fin.sum_univ_one]
  have hk := ValueIdx.contrEquiv1_symm_val dot_S16x256x1_S16x1x256_S16x256x256_2_1_1_2_0_0 1 rfl rfl 0
  have el : dot_S16x256x1_S16x1x256_S16x256x256_2_1_1_2_0_0.lhsIdx (ix3 n q k) ((ValueIdx.contrEquiv1 dot_S16x256x1_S16x1x256_S16x256x256_2_1_1_2_0_0 1 rfl rfl).symm 0) = ix3 n q (0 : Fin 1) := funext fun a => Fin.ext (by
    match a with
    | ⟨0, _⟩ => exact mask_lhs_0 _ _
    | ⟨1, _⟩ => exact mask_lhs_1 _ _
    | ⟨2, _⟩ => exact (mask_lhs_2 _ _).trans hk)
  have er : dot_S16x256x1_S16x1x256_S16x256x256_2_1_1_2_0_0.rhsIdx (ix3 n q k) ((ValueIdx.contrEquiv1 dot_S16x256x1_S16x1x256_S16x256x256_2_1_1_2_0_0 1 rfl rfl).symm 0) = ix3 n (0 : Fin 1) k := funext fun a => Fin.ext (by
    match a with
    | ⟨0, _⟩ => exact mask_rhs_0 _ _
    | ⟨1, _⟩ => exact (mask_rhs_1 _ _).trans hk
    | ⟨2, _⟩ => exact mask_rhs_2 _ _)
  rw [el, er]
  have h2 := shapeCast_apply (shapeCast S16x256 P2 shapeCasts_S1x16x1x1x256_S16x256) shapeCasts_S16x256_S16x1x256
    (ix3 n (0 : Fin 1) k) (ix2 n k) (by
      rw [Shape.rowMajor_val_two, Shape.rowMajor_val_three]
      show n.val * 256 + k.val = (n.val * 1 + 0) * 256 + k.val
      omega)
  have h3 := shapeCast_apply P2 shapeCasts_S1x16x1x1x256_S16x256 (ix2 n k) (ix5 (0 : Fin 1) n (0 : Fin 1) (0 : Fin 1) k) (by
      rw [Shape.rowMajor_val_five, Shape.rowMajor_val_two]
      show (((0 * 16 + n.val) * 1 + 0) * 1 + 0) * 256 + k.val = n.val * 256 + k.val
      omega)
  rw [h2, h3]
  show Ideal.ofBits .f32 0x3F800000#32 * _ = _
  rw [show Ideal.ofBits .f32 0x3F800000#32 = 1 from IdealRules.sign_bit.ideal_onePat .f32, one_mul]

/-! The operand coordinates of the query · key product, batched over the rows: at output index i and contraction position q, the left operand is read at (i 0, i 1, q); the right at (i 0, i 2, q). -/
private theorem qk_lhs_0 (i : S16x256x256.Idx) (q : dot_S16x256x32_S16x256x32_S16x256x256_2_2_1_1_0_0.contr.Idx) :
    (dot_S16x256x32_S16x256x32_S16x256x256_2_2_1_1_0_0.lhsIdx i q 0).val = (i 0).val := by
  unfold DotDims.lhsIdx
  rw [dif_pos (show (0 : Fin S16x256x32.rank) ∈ dot_S16x256x32_S16x256x32_S16x256x256_2_2_1_1_0_0.lhsBatch by decide)]
  rfl
private theorem qk_lhs_1 (i : S16x256x256.Idx) (q : dot_S16x256x32_S16x256x32_S16x256x256_2_2_1_1_0_0.contr.Idx) :
    (dot_S16x256x32_S16x256x32_S16x256x256_2_2_1_1_0_0.lhsIdx i q 1).val = (i 1).val := by
  unfold DotDims.lhsIdx
  rw [dif_neg (show ¬(1 : Fin S16x256x32.rank) ∈ dot_S16x256x32_S16x256x32_S16x256x256_2_2_1_1_0_0.lhsBatch by decide), dif_pos (show (1 : Fin S16x256x32.rank) ∈ dot_S16x256x32_S16x256x32_S16x256x256_2_2_1_1_0_0.lhsNonContracting by decide)]
  rfl
private theorem qk_lhs_2 (i : S16x256x256.Idx) (q : dot_S16x256x32_S16x256x32_S16x256x256_2_2_1_1_0_0.contr.Idx) :
    (dot_S16x256x32_S16x256x32_S16x256x256_2_2_1_1_0_0.lhsIdx i q 2).val = (q ⟨0, by decide⟩).val :=
  dot_S16x256x32_S16x256x32_S16x256x256_2_2_1_1_0_0.lhsIdx_val_of_single rfl i q
private theorem qk_rhs_0 (i : S16x256x256.Idx) (q : dot_S16x256x32_S16x256x32_S16x256x256_2_2_1_1_0_0.contr.Idx) :
    (dot_S16x256x32_S16x256x32_S16x256x256_2_2_1_1_0_0.rhsIdx i q 0).val = (i 0).val := by
  unfold DotDims.rhsIdx
  rw [dif_pos (show (0 : Fin S16x256x32.rank) ∈ dot_S16x256x32_S16x256x32_S16x256x256_2_2_1_1_0_0.rhsBatch by decide)]
  rfl
private theorem qk_rhs_1 (i : S16x256x256.Idx) (q : dot_S16x256x32_S16x256x32_S16x256x256_2_2_1_1_0_0.contr.Idx) :
    (dot_S16x256x32_S16x256x32_S16x256x256_2_2_1_1_0_0.rhsIdx i q 1).val = (i 2).val := by
  unfold DotDims.rhsIdx
  rw [dif_neg (show ¬(1 : Fin S16x256x32.rank) ∈ dot_S16x256x32_S16x256x32_S16x256x256_2_2_1_1_0_0.rhsBatch by decide), dif_pos (show (1 : Fin S16x256x32.rank) ∈ dot_S16x256x32_S16x256x32_S16x256x256_2_2_1_1_0_0.rhsNonContracting by decide)]
  rfl
private theorem qk_rhs_2 (i : S16x256x256.Idx) (q : dot_S16x256x32_S16x256x32_S16x256x256_2_2_1_1_0_0.contr.Idx) :
    (dot_S16x256x32_S16x256x32_S16x256x256_2_2_1_1_0_0.rhsIdx i q 2).val = (q ⟨0, by decide⟩).val :=
  dot_S16x256x32_S16x256x32_S16x256x256_2_2_1_1_0_0.rhsIdx_val_of_single rfl i q

/-- Query · key, batched over the rows: entry (n, q, k) is the sum over the 32 features of a (n, q, d) · b (n, k, d). -/
theorem qk_apply (a b : FVec Ideal S16x256x32 .bf16) (n : Fin 16) (q k : Fin 256) :
    matmul dot_S16x256x32_S16x256x32_S16x256x256_2_2_1_1_0_0 none a b (constant S16x256x256 .f32 0x00000000#32) (ix3 n q k)
      = ∑ d : Fin 32, a (ix3 n q d) * b (ix3 n k d) := by
  simp only [matmul]
  rw [Ideal.matmul_constant_zero_apply, ← Equiv.sum_comp (ValueIdx.contrEquiv1 dot_S16x256x32_S16x256x32_S16x256x256_2_2_1_1_0_0 32 rfl rfl).symm]
  refine Finset.sum_congr rfl fun t _ => ?_
  have hk := ValueIdx.contrEquiv1_symm_val dot_S16x256x32_S16x256x32_S16x256x256_2_2_1_1_0_0 32 rfl rfl t
  have el : dot_S16x256x32_S16x256x32_S16x256x256_2_2_1_1_0_0.lhsIdx (ix3 n q k) ((ValueIdx.contrEquiv1 dot_S16x256x32_S16x256x32_S16x256x256_2_2_1_1_0_0 32 rfl rfl).symm t) = ix3 n q t := funext fun a => Fin.ext (by
    match a with
    | ⟨0, _⟩ => exact qk_lhs_0 _ _
    | ⟨1, _⟩ => exact qk_lhs_1 _ _
    | ⟨2, _⟩ => exact (qk_lhs_2 _ _).trans hk)
  have er : dot_S16x256x32_S16x256x32_S16x256x256_2_2_1_1_0_0.rhsIdx (ix3 n q k) ((ValueIdx.contrEquiv1 dot_S16x256x32_S16x256x32_S16x256x256_2_2_1_1_0_0 32 rfl rfl).symm t) = ix3 n k t := funext fun a => Fin.ext (by
    match a with
    | ⟨0, _⟩ => exact qk_rhs_0 _ _
    | ⟨1, _⟩ => exact qk_rhs_1 _ _
    | ⟨2, _⟩ => exact (qk_rhs_2 _ _).trans hk)
  rw [el, er]

/-! The operand coordinates of the probabilities · values product, batched over the rows: at output index i and contraction position q, the left operand is read at (i 0, i 1, q); the right at (i 0, q, i 2). -/
private theorem av_lhs_0 (i : S16x256x32.Idx) (q : dot_S16x256x256_S16x256x32_S16x256x32_2_1_1_2_0_0.contr.Idx) :
    (dot_S16x256x256_S16x256x32_S16x256x32_2_1_1_2_0_0.lhsIdx i q 0).val = (i 0).val := by
  unfold DotDims.lhsIdx
  rw [dif_pos (show (0 : Fin S16x256x256.rank) ∈ dot_S16x256x256_S16x256x32_S16x256x32_2_1_1_2_0_0.lhsBatch by decide)]
  rfl
private theorem av_lhs_1 (i : S16x256x32.Idx) (q : dot_S16x256x256_S16x256x32_S16x256x32_2_1_1_2_0_0.contr.Idx) :
    (dot_S16x256x256_S16x256x32_S16x256x32_2_1_1_2_0_0.lhsIdx i q 1).val = (i 1).val := by
  unfold DotDims.lhsIdx
  rw [dif_neg (show ¬(1 : Fin S16x256x256.rank) ∈ dot_S16x256x256_S16x256x32_S16x256x32_2_1_1_2_0_0.lhsBatch by decide), dif_pos (show (1 : Fin S16x256x256.rank) ∈ dot_S16x256x256_S16x256x32_S16x256x32_2_1_1_2_0_0.lhsNonContracting by decide)]
  rfl
private theorem av_lhs_2 (i : S16x256x32.Idx) (q : dot_S16x256x256_S16x256x32_S16x256x32_2_1_1_2_0_0.contr.Idx) :
    (dot_S16x256x256_S16x256x32_S16x256x32_2_1_1_2_0_0.lhsIdx i q 2).val = (q ⟨0, by decide⟩).val :=
  dot_S16x256x256_S16x256x32_S16x256x32_2_1_1_2_0_0.lhsIdx_val_of_single rfl i q
private theorem av_rhs_0 (i : S16x256x32.Idx) (q : dot_S16x256x256_S16x256x32_S16x256x32_2_1_1_2_0_0.contr.Idx) :
    (dot_S16x256x256_S16x256x32_S16x256x32_2_1_1_2_0_0.rhsIdx i q 0).val = (i 0).val := by
  unfold DotDims.rhsIdx
  rw [dif_pos (show (0 : Fin S16x256x32.rank) ∈ dot_S16x256x256_S16x256x32_S16x256x32_2_1_1_2_0_0.rhsBatch by decide)]
  rfl
private theorem av_rhs_1 (i : S16x256x32.Idx) (q : dot_S16x256x256_S16x256x32_S16x256x32_2_1_1_2_0_0.contr.Idx) :
    (dot_S16x256x256_S16x256x32_S16x256x32_2_1_1_2_0_0.rhsIdx i q 1).val = (q ⟨0, by decide⟩).val :=
  dot_S16x256x256_S16x256x32_S16x256x32_2_1_1_2_0_0.rhsIdx_val_of_single rfl i q
private theorem av_rhs_2 (i : S16x256x32.Idx) (q : dot_S16x256x256_S16x256x32_S16x256x32_2_1_1_2_0_0.contr.Idx) :
    (dot_S16x256x256_S16x256x32_S16x256x32_2_1_1_2_0_0.rhsIdx i q 2).val = (i 2).val := by
  unfold DotDims.rhsIdx
  rw [dif_neg (show ¬(2 : Fin S16x256x32.rank) ∈ dot_S16x256x256_S16x256x32_S16x256x32_2_1_1_2_0_0.rhsBatch by decide), dif_pos (show (2 : Fin S16x256x32.rank) ∈ dot_S16x256x256_S16x256x32_S16x256x32_2_1_1_2_0_0.rhsNonContracting by decide)]
  rfl

/-- Probabilities · values, batched over the rows: entry (n, q, d) is the sum over the 256 key positions of
    pr (n, q, k) · v (n, k, d). -/
theorem av_apply (pr : FVec Ideal S16x256x256 .bf16) (v : FVec Ideal S16x256x32 .bf16) (n : Fin 16) (q : Fin 256) (d : Fin 32) :
    matmul dot_S16x256x256_S16x256x32_S16x256x32_2_1_1_2_0_0 none pr v (constant S16x256x32 .f32 0x00000000#32) (ix3 n q d)
      = ∑ k : Fin 256, pr (ix3 n q k) * v (ix3 n k d) := by
  simp only [matmul]
  rw [Ideal.matmul_constant_zero_apply, ← Equiv.sum_comp (ValueIdx.contrEquiv1 dot_S16x256x256_S16x256x32_S16x256x32_2_1_1_2_0_0 256 rfl rfl).symm]
  refine Finset.sum_congr rfl fun t _ => ?_
  have hk := ValueIdx.contrEquiv1_symm_val dot_S16x256x256_S16x256x32_S16x256x32_2_1_1_2_0_0 256 rfl rfl t
  have el : dot_S16x256x256_S16x256x32_S16x256x32_2_1_1_2_0_0.lhsIdx (ix3 n q d) ((ValueIdx.contrEquiv1 dot_S16x256x256_S16x256x32_S16x256x32_2_1_1_2_0_0 256 rfl rfl).symm t) = ix3 n q t := funext fun a => Fin.ext (by
    match a with
    | ⟨0, _⟩ => exact av_lhs_0 _ _
    | ⟨1, _⟩ => exact av_lhs_1 _ _
    | ⟨2, _⟩ => exact (av_lhs_2 _ _).trans hk)
  have er : dot_S16x256x256_S16x256x32_S16x256x32_2_1_1_2_0_0.rhsIdx (ix3 n q d) ((ValueIdx.contrEquiv1 dot_S16x256x256_S16x256x32_S16x256x32_2_1_1_2_0_0 256 rfl rfl).symm t) = ix3 n t d := funext fun a => Fin.ext (by
    match a with
    | ⟨0, _⟩ => exact av_rhs_0 _ _
    | ⟨1, _⟩ => exact (av_rhs_1 _ _).trans hk
    | ⟨2, _⟩ => exact av_rhs_2 _ _)
  rw [el, er]

end Cert.KernelIdeal.Attn

end
-- ==== Proof.KSoft.lean ====
/-
  The body's softmax over the key positions, read at one entry: the vector text — the row maximum started from −∞ and
  compared with −∞ once more, kept as a column and spread back over the row, the difference exponentiated, the row
  sum kept as a column and spread back, the quotient — is, at entry (n, q, k), the softmax of the row of 256 logits
  (n, q, ·) at k.
-/
import proofs.«423711_j1065151889535_3_alg».proof.Proof.Gen.KernelIdeal.Skeleton
import proofs.«423711_j1065151889535_3_alg».proof.Proof.Spec
import Idealize.ShloMosaic.PureOps.Ideal.Laws
import Idealize.ShloMosaic.Lib.ValueIdx
import Idealize.ShloMosaic.Lib.Pipeline.Value

noncomputable section

open scoped BigOperators

namespace Cert.KernelIdeal.Attn

open Cert.KernelIdeal Cert.KernelIdeal.Gen Idealize.ShloMosaic Idealize.ShloMosaic.ValueIdx

variable {F : FTy → Type} [FloatOps F]

/-- The softmax along the last axis of a [16, 256, 256] array of logits, in the body's own operations. -/
def softmaxV (s : FVec F S16x256x256 .f32) : FVec F S16x256x256 .f32 :=
  have v54 : FVec F S16x256 .f32 := multiReduction .maximumf [2] S16x256 s 0xFF800000#32 reduces_S16x256x256_S16x256 (.inl rfl) rfl
  have cst_41 : F .f32 := Scalar.ofBits .f32 0xFF800000#32
  have v55 : FVec F S16x256 .f32 := broadcast S16x256 cst_41
  have v56 : FVec F S16x256 .f32 := maximumf v55 v54
  have v57 : FVec F S16x256x1 .f32 := shapeCast S16x256x1 v56 shapeCasts_S16x256_S16x256x1
  have v58 : FVec F S16x256x256 .f32 := broadcastTo S16x256x256 v57 broadcasts_S16x256x1_S16x256x256
  have v59 : FVec F S16x256x256 .f32 := subf s v58
  have v60 : FVec F S16x256x256 .f32 := exp v59
  have v61 : FVec F S16x256 .f32 := multiReduction .add [2] S16x256 v60 0x00000000#32 reduces_S16x256x256_S16x256 (.inl rfl) rfl
  have v62 : FVec F S16x256x1 .f32 := shapeCast S16x256x1 v61 shapeCasts_S16x256_S16x256x1
  have v63 : FVec F S16x256x256 .f32 := broadcastTo S16x256x256 v62 broadcasts_S16x256x1_S16x256x256
  have v64 : FVec F S16x256x256 .f32 := divf v60 v63
  v64

/-! ## The non-pointwise steps at an entry -/

/-- The inserted index over row (n, q) with key coordinate k is (n, q, k). -/
theorem lift_row (h : S16x256x256.Reduces [2] S16x256) (n : Fin 16) (q k : Fin 256) :
    h.lift (ix2 n q) k = ix3 n q k := by
  funext a
  match a with
  | ⟨0, _⟩ => exact Fin.ext rfl
  | ⟨1, _⟩ => exact Fin.ext rfl
  | ⟨2, _⟩ => exact Fin.ext rfl

/-- The row maximum at (n, q): the fold of max from −∞ over the 256 entries (n, q, ·). -/
theorem rowMax_apply (s : FVec Ideal S16x256x256 .f32) (h : S16x256x256.Reduces [2] S16x256)
    (hφ : FKind.Formats .f32) (hacc : (0xFF800000#32 : BitVec 32) = FKind.maximumf.neutral .f32 hφ) (n : Fin 16) (q : Fin 256) :
    multiReduction .maximumf [2] S16x256 s 0xFF800000#32 h hφ hacc (ix2 n q)
      = Finset.univ.fold max Cert.Attn.ninf (fun k' : Fin 256 => s (ix3 n q k')) :=
  (Ideal.multiReduction_maximumf_single s 0xFF800000#32 h hφ hacc (ix2 n q)).trans
    (congrArg (Finset.univ.fold max Cert.Attn.ninf) (funext fun k' => congrArg s (lift_row h n q k')))

/-- The row sum at (n, q): the sum of the 256 entries (n, q, ·). -/
theorem rowSum_apply (s : FVec Ideal S16x256x256 .f32) (h : S16x256x256.Reduces [2] S16x256)
    (hφ : FKind.Formats .f32) (hacc : (0x00000000#32 : BitVec 32) = FKind.add.neutral .f32 hφ) (n : Fin 16) (q : Fin 256) :
    multiReduction .add [2] S16x256 s 0x00000000#32 h hφ hacc (ix2 n q)
      = ∑ k' : Fin 256, s (ix3 n q k') :=
  (Ideal.multiReduction_add_single s 0x00000000#32 h hφ hacc (ix2 n q)).trans
    (Finset.sum_congr rfl fun k' _ => congrArg s (lift_row h n q k'))

/-- A column kept as a trailing unit axis reads the column. -/
theorem keep_apply (v : FVec Ideal S16x256 .f32) (h : S16x256.ShapeCasts S16x256x1) (n : Fin 16) (q : Fin 256) (z : Fin 1) :
    shapeCast S16x256x1 v h (ix3 n q z) = v (ix2 n q) :=
  shapeCast_apply v h (ix3 n q z) (ix2 n q) (by
    rw [Shape.rowMajor_val_two, Shape.rowMajor_val_three]
    show n.val * 256 + q.val = (n.val * 256 + q.val) * 1 + z.val
    have := z.isLt
    omega)

/-- A trailing unit axis spread over 256 positions reads the column everywhere. -/
theorem spread_apply (v : FVec Ideal S16x256x1 .f32) (h : S16x256x1.Broadcasts S16x256x256) (n : Fin 16) (q k : Fin 256) :
    broadcastTo S16x256x256 v h (ix3 n q k) = v (ix3 n q 0) :=
  broadcastTo_apply v h (ix3 n q k) (ix3 n q 0) (fun a => by
    match a with
    | ⟨0, _⟩ => exact (if_neg (show ¬ (16 : ℕ) = 1 by decide)).symm
    | ⟨1, _⟩ => exact (if_neg (show ¬ (256 : ℕ) = 1 by decide)).symm
    | ⟨2, _⟩ => exact (if_pos rfl).symm)

/-- A column of [16, 256] kept as a trailing unit axis and spread over the 256 key positions reads the column. -/
theorem colSpread_apply (v : FVec Ideal S16x256 .f32) (h1 : S16x256.ShapeCasts S16x256x1)
    (h2 : S16x256x1.Broadcasts S16x256x256) (n : Fin 16) (q k : Fin 256) :
    broadcastTo S16x256x256 (shapeCast S16x256x1 v h1) h2 (ix3 n q k) = v (ix2 n q) :=
  (spread_apply _ h2 n q k).trans (keep_apply v h1 n q 0)

/-- The broadcast word of −∞ reads −∞ at every index. -/
theorem ninf_apply (i : S16x256.Idx) :
    broadcast S16x256 (Scalar.ofBits (F := Ideal) .f32 0xFF800000#32) i = Cert.Attn.ninf := rfl

/-- The subtracted entry: the row's maximum, compared with −∞ once more, at every key position of the row. -/
theorem colMax_apply (s : FVec Ideal S16x256x256 .f32) (hr : S16x256x256.Reduces [2] S16x256)
    (hφ : FKind.Formats .f32) (hacc : (0xFF800000#32 : BitVec 32) = FKind.maximumf.neutral .f32 hφ)
    (h1 : S16x256.ShapeCasts S16x256x1) (h2 : S16x256x1.Broadcasts S16x256x256) (n : Fin 16) (q k : Fin 256) :
    broadcastTo S16x256x256 (shapeCast S16x256x1
        (maximumf (broadcast S16x256 (Scalar.ofBits (F := Ideal) .f32 0xFF800000#32))
          (multiReduction .maximumf [2] S16x256 s 0xFF800000#32 hr hφ hacc)) h1) h2 (ix3 n q k)
      = max Cert.Attn.ninf (Finset.univ.fold max Cert.Attn.ninf fun k' : Fin 256 => s (ix3 n q k')) :=
  (colSpread_apply _ h1 h2 n q k).trans
    ((maximumf_apply _ _ (ix2 n q)).trans
      (congrArg₂ max (ninf_apply (ix2 n q)) (rowMax_apply s hr hφ hacc n q)))

/-- The exponential of a difference whose subtrahend is one value m along the row. -/
theorem expSub_apply (s M : FVec Ideal S16x256x256 .f32) (m : EReal) (n : Fin 16) (q : Fin 256)
    (hM : ∀ k : Fin 256, M (ix3 n q k) = m) (k : Fin 256) :
    exp (subf s M) (ix3 n q k) = Ideal.exp (s (ix3 n q k) - m) :=
  congrArg (fun x => Ideal.exp (s (ix3 n q k) - x)) (hM k)

/-- The divisor: the row's sum at every key position of the row. -/
theorem colSum_apply (e : FVec Ideal S16x256x256 .f32) (hr : S16x256x256.Reduces [2] S16x256)
    (hφ : FKind.Formats .f32) (hacc : (0x00000000#32 : BitVec 32) = FKind.add.neutral .f32 hφ)
    (h1 : S16x256.ShapeCasts S16x256x1) (h2 : S16x256x1.Broadcasts S16x256x256) (n : Fin 16) (q k : Fin 256) :
    broadcastTo S16x256x256 (shapeCast S16x256x1 (multiReduction .add [2] S16x256 e 0x00000000#32 hr hφ hacc) h1) h2 (ix3 n q k)
      = ∑ k' : Fin 256, e (ix3 n q k') :=
  (colSpread_apply _ h1 h2 n q k).trans (rowSum_apply e hr hφ hacc n q)

/-- Entry (n, q, k) of the softmax is the softmax of row (n, q) at k. -/
theorem softmaxV_apply (s : FVec Ideal S16x256x256 .f32) (n : Fin 16) (q k : Fin 256) :
    softmaxV s (ix3 n q k) = Cert.Attn.smax (fun k' => s (ix3 n q k')) k := by
  have hM : ∀ k' : Fin 256, _ = _ := colMax_apply s reduces_S16x256x256_S16x256 (.inl rfl) rfl
    shapeCasts_S16x256_S16x256x1 broadcasts_S16x256x1_S16x256x256 n q
  have hE := expSub_apply s _ _ n q hM
  unfold softmaxV Cert.Attn.smax
  refine (divf_apply _ _ (ix3 n q k)).trans ?_
  refine congrArg₂ Ideal.div (hE k) ?_
  refine (colSum_apply _ reduces_S16x256x256_S16x256 (.inl rfl) rfl
    shapeCasts_S16x256_S16x256x1 broadcasts_S16x256x1_S16x256x256 n q k).trans ?_
  exact Finset.sum_congr rfl fun k' _ => hE k'

end Cert.KernelIdeal.Attn

end
-- ==== Proof.KBody.lean ====
/-
  What one grid point's body leaves in its output block, entry by entry.

  The body flattens its 16 rows of 256 positions to 4096 rows p = 256 n + q, and for each of the four heads computes,
  from the block's activations A, B (4096 × 128), the mask M spread to [16, 256, 256], the head's slices of the
  weights and the head's pair bias:
    projections  A wᵀ, B wᵀ            (4096 × 32; the query's scaled)
    scores       (q · kᵀ + M) + bias   ([16, 256, 256], batched over the 16 rows)
    softmax      over the key positions
    values       probabilities · v     ([16, 256, 32])
    gate         logistic (A w_gᵀ + b_g)
    partial sum  acc + (values · gate) w_oᵀ   (4096 × 128)
  and adds the output bias after the fourth head. Below, one head's text is written once as vector functions; the four
  heads of the printed body are that text (the printed payloads cut the body by position, not by head: the equalities
  are by unfolding); and each function is read at an entry, ending in the block's entry (0, n, q, c).
-/
import proofs.«423711_j1065151889535_3_alg».proof.Proof.Gen.KernelIdeal.Frame
import proofs.«423711_j1065151889535_3_alg».proof.Proof.Spec
import proofs.«423711_j1065151889535_3_alg».proof.Proof.KMat
import proofs.«423711_j1065151889535_3_alg».proof.Proof.KSoft
import Idealize.ShloMosaic.Lib.ValueLayout

noncomputable section

open scoped BigOperators

namespace Cert.KernelIdeal.Attn

open Cert.KernelIdeal Cert.KernelIdeal.Gen Idealize.ShloMosaic Idealize.ShloMosaic.ValueIdx

/-- Row 256 n + q of the block flattened to 4096 rows. -/
def pq (n : Fin 16) (q : Fin 256) : Fin 4096 := ⟨n.val * 256 + q.val, by have := n.isLt; have := q.isLt; omega⟩

/-! ## One head, as vector functions -/

section Vectors

variable {F : FTy → Type} [FloatOps F]

/-- A projection x · wᵀ into the zero splat. -/
def projV (x : FVec F S4096x128 .bf16) (w : FVec F S32x128 .bf16) : FVec F S4096x32 .f32 :=
  matmul dot_S4096x128_S128x32_S4096x32_1_0_0_1_n_n none x (transpose S128x32 [1, 0] w transposes_S32x128_p1_0_S128x32)
    (constant S4096x32 .f32 0x00000000#32)

/-- 4096 rows of 32 features as 16 × 256 rows. -/
def to3 (x : FVec F S4096x32 .f32) : FVec F S16x256x32 .f32 := shapeCast S16x256x32 x shapeCasts_S4096x32_S16x256x32

/-- The scores: scaled query · key, plus the mask, plus the pair bias spread over the 16 rows. -/
def scoresV (v3 v7 : FVec F S4096x128 .bf16) (v12 : FVec F S16x256x256 .f32) (v16 v19 : FVec F S32x128 .bf16)
    (v48 : Vec F S1x1x1x256x256 .f32) : FVec F S16x256x256 .f32 :=
  addf (addf (matmul dot_S16x256x32_S16x256x32_S16x256x256_2_2_1_1_0_0 none
      (truncf .bf16 (to3 (mulf (projV v3 v16) (broadcast S4096x32 (Scalar.ofBits .f32 0x3E3504F3#32)))) bitsLt_bf16_f32)
      (truncf .bf16 (to3 (projV v7 v19)) bitsLt_bf16_f32) (constant S16x256x256 .f32 0x00000000#32)) v12)
    (broadcastTo S16x256x256 (shapeCast S1x256x256 (shapeCast S256x256 v48 shapeCasts_S1x1x1x256x256_S256x256)
      shapeCasts_S256x256_S1x256x256) broadcasts_S1x256x256_S16x256x256)

/-- The gate: logistic of the gate projection plus its bias row, as 16 × 256 rows. -/
def gateV (v3 : FVec F S4096x128 .bf16) (v25 : FVec F S32x128 .bf16) (v27 : FVec F S1x32 .f32) : FVec F S16x256x32 .f32 :=
  to3 (logistic (addf (projV v3 v25) (broadcastTo S4096x32 v27 broadcasts_S1x32_S4096x32)))

/-- The head's gated values: softmax of the scores times the value projection, times the gate. -/
def ohV (v3 v7 : FVec F S4096x128 .bf16) (v12 : FVec F S16x256x256 .f32) (v16 v19 v22 v25 : FVec F S32x128 .bf16)
    (v27 : FVec F S1x32 .f32) (v48 : Vec F S1x1x1x256x256 .f32) : FVec F S16x256x32 .f32 :=
  mulf (matmul dot_S16x256x256_S16x256x32_S16x256x32_2_1_1_2_0_0 none
      (truncf .bf16 (softmaxV (scoresV v3 v7 v12 v16 v19 v48)) bitsLt_bf16_f32)
      (truncf .bf16 (to3 (projV v7 v22)) bitsLt_bf16_f32) (constant S16x256x32 .f32 0x00000000#32))
    (gateV v3 v25 v27)

/-- A weight slice [1, 32, 128] as the bf16 matrix the products take. -/
def wmat (w : Vec F S1x32x128 .f32) : FVec F S32x128 .bf16 :=
  truncf .bf16 (shapeCast S32x128 w shapeCasts_S1x32x128_S32x128 : FVec F S32x128 .f32) bitsLt_bf16_f32

/-- A gate-bias slice [1, 1, 32] as a row. -/
def brow (b : Vec F S1x1x32 .f32) : FVec F S1x32 .f32 := shapeCast S1x32 b shapeCasts_S1x1x32_S1x32

/-- An output-weight slice [1, 128, 32] as the bf16 matrix the output projection takes. -/
def womat (wo : Vec F S1x128x32 .f32) : FVec F S128x32 .bf16 :=
  truncf .bf16 (shapeCast S128x32 wo shapeCasts_S1x128x32_S128x32 : FVec F S128x32 .f32) bitsLt_bf16_f32

/-- One head added onto the accumulator: acc + (gated values as 4096 rows) · w_oᵀ. -/
def headV (acc : FVec F S4096x128 .f32) (v3 v7 : FVec F S4096x128 .bf16) (v12 : FVec F S16x256x256 .f32)
    (wq wk wv wg : Vec F S1x32x128 .f32) (bg : Vec F S1x1x32 .f32) (tri : Vec F S1x1x1x256x256 .f32)
    (wo : Vec F S1x128x32 .f32) : FVec F S4096x128 .f32 :=
  addf acc (matmul dot_S4096x32_S32x128_S4096x128_1_0_0_1_n_n none
    (truncf .bf16 (shapeCast S4096x32 (ohV v3 v7 v12 (wmat wq) (wmat wk) (wmat wv) (wmat wg) (brow bg) tri)
      shapeCasts_S16x256x32_S4096x32 : FVec F S4096x32 .f32) bitsLt_bf16_f32)
    (transpose S32x128 [1, 0] (womat wo) transposes_S128x32_p1_0_S32x128) (constant S4096x128 .f32 0x00000000#32))

/-- The first head of the printed body is this text. -/
theorem head0_eq (acc : FVec F S4096x128 .f32) (v3 v7 : FVec F S4096x128 .bf16) (v12 : FVec F S16x256x256 .f32)
    (wq wk wv wg : Vec F S1x32x128 .f32) (bg : Vec F S1x1x32 .f32) (tri : Vec F S1x1x1x256x256 .f32) (wo : Vec F S1x128x32 .f32) :
    k0_pay12 acc (k0_pay11 v3 v7 v12 (k0_pay6 wq) (k0_pay7 wk) (k0_pay8 wv) (k0_pay9 wg) (k0_pay10 bg) tri) wo
      = headV acc v3 v7 v12 wq wk wv wg bg tri wo := rfl

/-- The second head. -/
theorem head1_eq (acc : FVec F S4096x128 .f32) (v3 v7 : FVec F S4096x128 .bf16) (v12 : FVec F S16x256x256 .f32)
    (wq wk wv wg : Vec F S1x32x128 .f32) (bg : Vec F S1x1x32 .f32) (tri : Vec F S1x1x1x256x256 .f32) (wo : Vec F S1x128x32 .f32) :
    k0_pay17 v12 acc (k0_pay13 v7 wk) (k0_pay14 v7 wv) (k0_pay15 v3 wg bg) (k0_pay16 v3 wq) tri wo
      = headV acc v3 v7 v12 wq wk wv wg bg tri wo := rfl

/-- The third head. -/
theorem head2_eq (acc : FVec F S4096x128 .f32) (v3 v7 : FVec F S4096x128 .bf16) (v12 : FVec F S16x256x256 .f32)
    (wq wk wv wg : Vec F S1x32x128 .f32) (bg : Vec F S1x1x32 .f32) (tri : Vec F S1x1x1x256x256 .f32) (wo : Vec F S1x128x32 .f32) :
    k0_pay23 acc (k0_pay20 v7 wv) (k0_pay21 v3 wg bg) (k0_pay22 v3 v7 v12 (k0_pay18 wq) (k0_pay19 wk) tri) wo
      = headV acc v3 v7 v12 wq wk wv wg bg tri wo := rfl

/-- The fourth head. -/
theorem head3_eq (acc : FVec F S4096x128 .f32) (v3 v7 : FVec F S4096x128 .bf16) (v12 : FVec F S16x256x256 .f32)
    (wq wk wv wg : Vec F S1x32x128 .f32) (bg : Vec F S1x1x32 .f32) (tri : Vec F S1x1x1x256x256 .f32) (wo : Vec F S1x128x32 .f32) :
    k0_pay29 v3 v7 v12 acc (k0_pay24 wv) (k0_pay25 wg) (k0_pay26 bg) (k0_pay27 v3 wq) (k0_pay28 v7 wk) tri wo
      = headV acc v3 v7 v12 wq wk wv wg bg tri wo := rfl

end Vectors

/-! ## The same, read at an entry on the extended reals -/

section AtIdeal

theorem logistic_apply {s : Shape} {φ : FTy} (x : FVec Ideal s φ) (i : s.Idx) : logistic x i = Ideal.logistic (x i) := rfl

theorem scalar_ofBits (w : BitVec 32) : Scalar.ofBits (F := Ideal) .f32 w = Ideal.ofBits .f32 w := rfl

theorem projV_apply (x : FVec Ideal S4096x128 .bf16) (w : FVec Ideal S32x128 .bf16) (p : Fin 4096) (d : Fin 32) :
    projV x w (ix2 p d) = ∑ c : Fin 128, x (ix2 p c) * w (ix2 d c) := proj_apply x w p d

/-- Entry (n, q, d) of the 16 × 256 rows is entry (256 n + q, d) of the 4096 rows. -/
theorem to3_apply (x : FVec Ideal S4096x32 .f32) (n : Fin 16) (q : Fin 256) (d : Fin 32) :
    to3 x (ix3 n q d) = x (ix2 (pq n q) d) :=
  shapeCast_apply x shapeCasts_S4096x32_S16x256x32 (ix3 n q d) (ix2 (pq n q) d) (by
    rw [Shape.rowMajor_val_two, Shape.rowMajor_val_three]; rfl)

/-- … and back. -/
theorem of3_apply (x : FVec Ideal S16x256x32 .f32) (n : Fin 16) (q : Fin 256) (d : Fin 32) :
    shapeCast S4096x32 x shapeCasts_S16x256x32_S4096x32 (ix2 (pq n q) d) = x (ix3 n q d) :=
  shapeCast_apply x shapeCasts_S16x256x32_S4096x32 (ix2 (pq n q) d) (ix3 n q d) (by
    rw [Shape.rowMajor_val_two, Shape.rowMajor_val_three]; rfl)

theorem wmat_apply (w : Vec Ideal S1x32x128 .f32) (d : Fin 32) (c : Fin 128) : wmat w (ix2 d c) = w (ix3 0 d c) :=
  shapeCast_1ab_ab_apply w shapeCasts_S1x32x128_S32x128 d c

theorem womat_apply (w : Vec Ideal S1x128x32 .f32) (c : Fin 128) (d : Fin 32) : womat w (ix2 c d) = w (ix3 0 c d) :=
  shapeCast_1ab_ab_apply w shapeCasts_S1x128x32_S128x32 c d

theorem brow_apply (b : Vec Ideal S1x1x32 .f32) (d : Fin 32) : brow b (ix2 0 d) = b (ix3 0 0 d) :=
  shapeCast_1ab_ab_apply b shapeCasts_S1x1x32_S1x32 0 d

/-- The gate-bias row spread over the 4096 rows. -/
theorem bgrow_apply (v : FVec Ideal S1x32 .f32) (p : Fin 4096) (d : Fin 32) :
    broadcastTo S4096x32 v broadcasts_S1x32_S4096x32 (ix2 p d) = v (ix2 0 d) :=
  broadcastTo_apply v broadcasts_S1x32_S4096x32 (ix2 p d) (ix2 0 d) (fun a => match a with
    | ⟨0, _⟩ => by show (0 : ℕ) = if (1 : ℕ) = 1 then 0 else p.val; rw [if_pos rfl]
    | ⟨1, _⟩ => by show d.val = if (32 : ℕ) = 1 then 0 else d.val; rw [if_neg (by decide)])

/-- The pair bias of one head, [1, 1, 1, 256, 256], spread over the 16 rows: entry (n, q, k) is its entry (q, k). -/
theorem tri_apply (t : Vec Ideal S1x1x1x256x256 .f32) (n : Fin 16) (q k : Fin 256) :
    broadcastTo S16x256x256 (shapeCast S1x256x256 (shapeCast S256x256 t shapeCasts_S1x1x1x256x256_S256x256)
      shapeCasts_S256x256_S1x256x256) broadcasts_S1x256x256_S16x256x256 (ix3 n q k) = t (ix5 0 0 0 q k) := by
  refine (broadcastTo_apply _ broadcasts_S1x256x256_S16x256x256 (ix3 n q k) (ix3 0 q k) (fun a => match a with
    | ⟨0, _⟩ => by show (0 : ℕ) = if (1 : ℕ) = 1 then 0 else n.val; rw [if_pos rfl]
    | ⟨1, _⟩ => by show q.val = if (256 : ℕ) = 1 then 0 else q.val; rw [if_neg (by decide)]
    | ⟨2, _⟩ => by show k.val = if (256 : ℕ) = 1 then 0 else k.val; rw [if_neg (by decide)])).trans ?_
  refine (shapeCast_ab_1ab_apply _ shapeCasts_S256x256_S1x256x256 0 q k).trans ?_
  exact shapeCast_apply t shapeCasts_S1x1x1x256x256_S256x256 (ix2 q k) (ix5 0 0 0 q k) (by
    rw [Shape.rowMajor_val_five, Shape.rowMajor_val_two]
    show (((0 * 1 + 0) * 1 + 0) * 256 + q.val) * 256 + k.val = q.val * 256 + k.val
    omega)

variable (v3 v7 : FVec Ideal S4096x128 .bf16) (v12 : FVec Ideal S16x256x256 .f32)

/-- A score: the specification's logit of the block's row n. -/
theorem scoresV_apply (v16 v19 : FVec Ideal S32x128 .bf16) (v48 : Vec Ideal S1x1x1x256x256 .f32) (n : Fin 16) (q k : Fin 256) :
    scoresV v3 v7 v12 v16 v19 v48 (ix3 n q k)
      = Cert.Attn.logit (fun q c => v3 (ix2 (pq n q) c)) (fun k c => v7 (ix2 (pq n k) c)) (fun q k => v12 (ix3 n q k))
          (fun q k => v48 (ix5 0 0 0 q k)) (fun d c => v16 (ix2 d c)) (fun d c => v19 (ix2 d c)) q k := by
  unfold scoresV Cert.Attn.logit Cert.Attn.lin Cert.Attn.sc
  simp only [addf_apply, mulf_apply, truncf_apply, broadcast_apply, qk_apply, to3_apply, projV_apply, scalar_ofBits]
  exact congrArg (_ + ·) (tri_apply v48 n q k)

/-- A gate entry. -/
theorem gateV_apply (v25 : FVec Ideal S32x128 .bf16) (v27 : FVec Ideal S1x32 .f32) (n : Fin 16) (q : Fin 256) (d : Fin 32) :
    gateV v3 v25 v27 (ix3 n q d)
      = Ideal.logistic (Cert.Attn.lin (fun c => v3 (ix2 (pq n q) c)) (fun c => v25 (ix2 d c)) + v27 (ix2 0 d)) := by
  unfold gateV Cert.Attn.lin
  simp only [to3_apply, logistic_apply, addf_apply, projV_apply, bgrow_apply]

/-- A gated value: the specification's gated feature of the block's row n. -/
theorem ohV_apply (v16 v19 v22 v25 : FVec Ideal S32x128 .bf16) (v27 : FVec Ideal S1x32 .f32) (v48 : Vec Ideal S1x1x1x256x256 .f32)
    (n : Fin 16) (q : Fin 256) (d : Fin 32) :
    ohV v3 v7 v12 v16 v19 v22 v25 v27 v48 (ix3 n q d)
      = Cert.Attn.og (fun q c => v3 (ix2 (pq n q) c)) (fun k c => v7 (ix2 (pq n k) c)) (fun q k => v12 (ix3 n q k))
          (fun q k => v48 (ix5 0 0 0 q k)) (fun d c => v16 (ix2 d c)) (fun d c => v19 (ix2 d c)) (fun d c => v22 (ix2 d c))
          (fun d c => v25 (ix2 d c)) (fun d => v27 (ix2 0 d)) q d := by
  unfold ohV Cert.Attn.og
  simp only [mulf_apply, av_apply, truncf_apply, softmaxV_apply, scoresV_apply, to3_apply, projV_apply, gateV_apply]
  rfl

/-- One head at entry (256 n + q, c): the accumulator's entry plus the head's 32 gated features against the head's
    output weights. -/
theorem headV_apply (acc : FVec Ideal S4096x128 .f32) (wq wk wv wg : Vec Ideal S1x32x128 .f32) (bg : Vec Ideal S1x1x32 .f32)
    (tri : Vec Ideal S1x1x1x256x256 .f32) (wo : Vec Ideal S1x128x32 .f32) (n : Fin 16) (q : Fin 256) (c : Fin 128) :
    headV acc v3 v7 v12 wq wk wv wg bg tri wo (ix2 (pq n q) c)
      = acc (ix2 (pq n q) c) + ∑ d : Fin 32,
          Cert.Attn.og (fun q c => v3 (ix2 (pq n q) c)) (fun k c => v7 (ix2 (pq n k) c)) (fun q k => v12 (ix3 n q k))
            (fun q k => tri (ix5 0 0 0 q k)) (fun d c => wq (ix3 0 d c)) (fun d c => wk (ix3 0 d c)) (fun d c => wv (ix3 0 d c))
            (fun d c => wg (ix3 0 d c)) (fun d => bg (ix3 0 0 d)) q d * wo (ix3 0 c d) := by
  unfold headV
  refine (congrArg (acc (ix2 (pq n q) c) + ·) (oproj_apply _ _ (pq n q) c)).trans ?_
  refine congrArg (acc (ix2 (pq n q) c) + ·) (Finset.sum_congr rfl fun d _ => ?_)
  refine congrArg₂ (· * ·) ?_ (womat_apply wo c d)
  refine (of3_apply (ohV v3 v7 v12 (wmat wq) (wmat wk) (wmat wv) (wmat wg) (brow bg) tri) n q d).trans ?_
  refine (ohV_apply v3 v7 v12 (wmat wq) (wmat wk) (wmat wv) (wmat wg) (brow bg) tri n q d).trans ?_
  simp only [wmat_apply, brow_apply]

end AtIdeal

/-! ## The block's entry -/

section Block

theorem hz4 : (![0, 0, 0, 0] : Fin 4 → ℕ) = fun _ => 0 := by
  funext a; match a with | ⟨0, _⟩ => rfl | ⟨1, _⟩ => rfl | ⟨2, _⟩ => rfl | ⟨3, _⟩ => rfl
theorem hz5 : (![0, 0, 0, 0, 0] : Fin 5 → ℕ) = fun _ => 0 := by
  funext a; match a with | ⟨0, _⟩ => rfl | ⟨1, _⟩ => rfl | ⟨2, _⟩ => rfl | ⟨3, _⟩ => rfl | ⟨4, _⟩ => rfl
theorem hz2 : (![0, 0] : Fin 2 → ℕ) = fun _ => 0 := by
  funext a; match a with | ⟨0, _⟩ => rfl | ⟨1, _⟩ => rfl

/-- A load of head h's [1, 32, 128] slice of a weight array: its entry (0, d, c) is the array's (h, d, c). -/
theorem ldW (x : Vec Ideal S4x32x128 .f32) (h : ℕ) (hh : h < 4)
    (inb : ∀ a, (![h, 0, 0] : Fin 3 → ℕ) a + S1x32x128.size a ≤ S4x32x128.size a) (d : Fin 32) (c : Fin 128) :
    View.ld x (Rect.unit (s := S4x32x128) ![h, 0, 0] S1x32x128.size inb) (ix3 0 d c) = x (ix3 (⟨h, hh⟩ : Fin 4) d c) := by
  show x ((Rect.unit (s := S4x32x128) ![h, 0, 0] S1x32x128.size inb).emb (ix3 0 d c)) = x (ix3 (⟨h, hh⟩ : Fin 4) d c)
  refine congrArg x (funext fun a => Fin.ext ?_)
  match a with
  | ⟨0, _⟩ => show h + 1 * 0 = h; omega
  | ⟨1, _⟩ => show 0 + 1 * d.val = d.val; omega
  | ⟨2, _⟩ => show 0 + 1 * c.val = c.val; omega

/-- Head h's [1, 1, 32] slice of the gate bias. -/
theorem ldB (x : Vec Ideal S4x1x32 .f32) (h : ℕ) (hh : h < 4)
    (inb : ∀ a, (![h, 0, 0] : Fin 3 → ℕ) a + S1x1x32.size a ≤ S4x1x32.size a) (d : Fin 32) :
    View.ld x (Rect.unit (s := S4x1x32) ![h, 0, 0] S1x1x32.size inb) (ix3 0 0 d) = x (ix3 (⟨h, hh⟩ : Fin 4) 0 d) := by
  show x ((Rect.unit (s := S4x1x32) ![h, 0, 0] S1x1x32.size inb).emb (ix3 0 0 d)) = x (ix3 (⟨h, hh⟩ : Fin 4) 0 d)
  refine congrArg x (funext fun a => Fin.ext ?_)
  match a with
  | ⟨0, _⟩ => show h + 1 * 0 = h; omega
  | ⟨1, _⟩ => show 0 + 1 * 0 = 0; omega
  | ⟨2, _⟩ => show 0 + 1 * d.val = d.val; omega

/-- Head h's [1, 1, 1, 256, 256] slice of the pair bias. -/
theorem ldT (x : Vec Ideal S1x1x4x256x256 .f32) (h : ℕ) (hh : h < 4)
    (inb : ∀ a, (![0, 0, h, 0, 0] : Fin 5 → ℕ) a + S1x1x1x256x256.size a ≤ S1x1x4x256x256.size a) (q k : Fin 256) :
    View.ld x (Rect.unit (s := S1x1x4x256x256) ![0, 0, h, 0, 0] S1x1x1x256x256.size inb) (ix5 0 0 0 q k) = x (ix5 0 0 (⟨h, hh⟩ : Fin 4) q k) := by
  show x ((Rect.unit (s := S1x1x4x256x256) ![0, 0, h, 0, 0] S1x1x1x256x256.size inb).emb (ix5 0 0 0 q k)) = x (ix5 0 0 (⟨h, hh⟩ : Fin 4) q k)
  refine congrArg x (funext fun a => Fin.ext ?_)
  match a with
  | ⟨0, _⟩ => show 0 + 1 * 0 = 0; omega
  | ⟨1, _⟩ => show 0 + 1 * 0 = 0; omega
  | ⟨2, _⟩ => show h + 1 * 0 = h; omega
  | ⟨3, _⟩ => show 0 + 1 * q.val = q.val; omega
  | ⟨4, _⟩ => show 0 + 1 * k.val = k.val; omega

/-- Head h's [1, 128, 32] slice of the output weights. -/
theorem ldO (x : Vec Ideal S4x128x32 .f32) (h : ℕ) (hh : h < 4)
    (inb : ∀ a, (![h, 0, 0] : Fin 3 → ℕ) a + S1x128x32.size a ≤ S4x128x32.size a) (c : Fin 128) (d : Fin 32) :
    View.ld x (Rect.unit (s := S4x128x32) ![h, 0, 0] S1x128x32.size inb) (ix3 0 c d) = x (ix3 (⟨h, hh⟩ : Fin 4) c d) := by
  show x ((Rect.unit (s := S4x128x32) ![h, 0, 0] S1x128x32.size inb).emb (ix3 0 c d)) = x (ix3 (⟨h, hh⟩ : Fin 4) c d)
  refine congrArg x (funext fun a => Fin.ext ?_)
  match a with
  | ⟨0, _⟩ => show h + 1 * 0 = h; omega
  | ⟨1, _⟩ => show 0 + 1 * c.val = c.val; omega
  | ⟨2, _⟩ => show 0 + 1 * d.val = d.val; omega

/-- The whole-block loads read the blocks. -/
theorem ld0 (x : Vec Ideal S1x16x256x128 .f32) : View.ld x r0_0 = x := View.ld_unit_zero hz4 _ x
theorem ld1 (x : Vec Ideal S1x16x1x1x256 .f32) : View.ld x r0_1 = x := View.ld_unit_zero hz5 _ x
theorem ld18 (x : Vec Ideal S1x128 .f32) : View.ld x r0_18 = x := View.ld_unit_zero hz2 _ x

/-- The activations flattened to 4096 rows: entry (256 n + q, c) is the block's (0, n, q, c). -/
theorem pay2_apply (P : Vec Ideal S1x16x256x128 .f32) (n : Fin 16) (q : Fin 256) (c : Fin 128) :
    k0_pay2 P (ix2 (pq n q) c) = P (ix4 0 n q c) := by
  unfold k0_pay2
  refine (shapeCast_apply (shapeCast S16x256x128 P shapeCasts_S1x16x256x128_S16x256x128) shapeCasts_S16x256x128_S4096x128
    (ix2 (pq n q) c) (ix3 n q c) (by rw [Shape.rowMajor_val_two, Shape.rowMajor_val_three]; rfl)).trans ?_
  exact shapeCast_1abc_abc_apply P shapeCasts_S1x16x256x128_S16x256x128 n q c

theorem pay3_apply (P : Vec Ideal S1x16x256x128 .f32) (n : Fin 16) (q : Fin 256) (c : Fin 128) :
    k0_pay3 P (ix2 (pq n q) c) = P (ix4 0 n q c) := pay2_apply P n q c

/-- The accumulator starts from zero. -/
theorem pay5_apply (i : S4096x128.Idx) : k0_pay5 (F := Ideal) i = 0 := Ideal.ofBits_zero_f32

/-- The store's value: the accumulated heads as 16 × 256 rows, plus the output-bias row. -/
theorem pay1_apply (X : FVec Ideal S4096x128 .f32) (B : Vec Ideal S1x128 .f32) (n : Fin 16) (q : Fin 256) (c : Fin 128) :
    k0_pay1 X B (ix4 0 n q c) = X (ix2 (pq n q) c) + B (ix2 0 c) := by
  unfold k0_pay1
  refine (shapeCast_abc_1abc_apply _ shapeCasts_S16x256x128_S1x16x256x128 0 n q c).trans ?_
  refine (shapeCast_apply _ shapeCasts_S4096x128_S16x256x128 (ix3 n q c) (ix2 (pq n q) c) (by
    rw [Shape.rowMajor_val_two, Shape.rowMajor_val_three]; rfl)).trans ?_
  refine congrArg (X (ix2 (pq n q) c) + ·) ?_
  refine (broadcastTo_apply _ broadcasts_S1x128_S4096x128 (ix2 (pq n q) c) (ix2 0 c) (fun a => match a with
    | ⟨0, _⟩ => by show (0 : ℕ) = if (1 : ℕ) = 1 then 0 else (pq n q).val; rw [if_pos rfl]
    | ⟨1, _⟩ => by show c.val = if (128 : ℕ) = 1 then 0 else c.val; rw [if_neg (by decide)])).trans ?_
  exact congrFun (shapeCast_self B shapeCasts_S1x128_S1x128) (ix2 0 c)

end Block

/-- The gated feature depends on the pair bias, the weights and the gate bias only through their entries. -/
theorem og_congr (xq xkv : Fin 256 → Fin 128 → EReal) (msk : Fin 256 → Fin 256 → EReal)
    {tr tr' : Fin 256 → Fin 256 → EReal} {wq wq' wk wk' wv wv' wg wg' : Fin 32 → Fin 128 → EReal} {bg bg' : Fin 32 → EReal}
    (ht : ∀ q k, tr q k = tr' q k) (hq : ∀ d c, wq d c = wq' d c) (hk : ∀ d c, wk d c = wk' d c)
    (hv : ∀ d c, wv d c = wv' d c) (hg : ∀ d c, wg d c = wg' d c) (hb : ∀ d, bg d = bg' d) (q : Fin 256) (d : Fin 32) :
    Cert.Attn.og xq xkv msk tr wq wk wv wg bg q d = Cert.Attn.og xq xkv msk tr' wq' wk' wv' wg' bg' q d := by
  obtain rfl : tr = tr' := funext fun q => funext fun k => ht q k
  obtain rfl : wq = wq' := funext fun d => funext fun c => hq d c
  obtain rfl : wk = wk' := funext fun d => funext fun c => hk d c
  obtain rfl : wv = wv' := funext fun d => funext fun c => hv d c
  obtain rfl : wg = wg' := funext fun d => funext fun c => hg d c
  obtain rfl : bg = bg' := funext hb
  rfl

/-- Head h's gated feature d at the block's row n and query position q, from the input blocks: the block's rows of the
    two activations and of the mask, and the whole bias and weight arrays (their windows hold them whole). -/
def ogB (x0 x1 : Vec Ideal S1x16x256x128 .f32) (x2 : Vec Ideal S1x16x1x1x256 .f32) (x3 : Vec Ideal S1x1x4x256x256 .f32)
    (x4 x5 x6 x7 : Vec Ideal S4x32x128 .f32) (x8 : Vec Ideal S4x1x32 .f32) (n : Fin 16) (h : Fin 4) (q : Fin 256) (d : Fin 32) : EReal :=
  Cert.Attn.og (fun q c => x0 (ix4 0 n q c)) (fun k c => x1 (ix4 0 n k c)) (fun _ k => x2 (ix5 0 n 0 0 k))
    (fun q k => x3 (ix5 0 0 h q k)) (fun d c => x4 (ix3 h d c)) (fun d c => x5 (ix3 h d c)) (fun d c => x6 (ix3 h d c))
    (fun d c => x7 (ix3 h d c)) (fun d => x8 (ix3 h 0 d)) q d

/-- The output block at (0, n, q, c). -/
theorem body_apply (x0 x1 : Vec Ideal S1x16x256x128 .f32) (x2 : Vec Ideal S1x16x1x1x256 .f32) (x3 : Vec Ideal S1x1x4x256x256 .f32)
    (x4 x5 x6 x7 : Vec Ideal S4x32x128 .f32) (x8 : Vec Ideal S4x1x32 .f32) (x9 : Vec Ideal S4x128x32 .f32) (x10 : Vec Ideal S1x128 .f32)
    (n : Fin 16) (q : Fin 256) (c : Fin 128) :
    out0_11 x0 x1 x2 x3 x4 x5 x6 x7 x8 x9 x10 (ix4 0 n q c)
      = Cert.Attn.outAcc (fun h d => ogB x0 x1 x2 x3 x4 x5 x6 x7 x8 n h q d) (fun h d => x9 (ix3 h c d)) (x10 (ix2 0 c)) := by
  unfold out0_11
  refine (congrFun (View.canon_unit_zero hz4 _ _) (ix4 0 n q c)).trans ?_
  rw [pay1_apply, head3_eq, head2_eq, head1_eq, head0_eq, headV_apply, headV_apply, headV_apply, headV_apply]
  unfold Cert.Attn.outAcc ogB
  simp only [pay2_apply, pay3_apply, mask_apply, pay5_apply, ld0, ld1]
  refine congrArg₂ (· + ·) (congrArg₂ (· + ·) (congrArg₂ (· + ·) (congrArg₂ (· + ·) (congrArg (0 + ·) ?_) ?_) ?_) ?_)
    (congrFun (ld18 x10) (ix2 0 c))
  · exact Finset.sum_congr rfl fun d _ => congrArg₂ (· * ·)
      (og_congr _ _ _ (fun q k => ldT x3 0 (by decide) _ q k) (fun d c => ldW x4 0 (by decide) _ d c) (fun d c => ldW x5 0 (by decide) _ d c)
        (fun d c => ldW x6 0 (by decide) _ d c) (fun d c => ldW x7 0 (by decide) _ d c) (fun d => ldB x8 0 (by decide) _ d) q d)
      (ldO x9 0 (by decide) _ c d)
  · exact Finset.sum_congr rfl fun d _ => congrArg₂ (· * ·)
      (og_congr _ _ _ (fun q k => ldT x3 1 (by decide) _ q k) (fun d c => ldW x4 1 (by decide) _ d c) (fun d c => ldW x5 1 (by decide) _ d c)
        (fun d c => ldW x6 1 (by decide) _ d c) (fun d c => ldW x7 1 (by decide) _ d c) (fun d => ldB x8 1 (by decide) _ d) q d)
      (ldO x9 1 (by decide) _ c d)
  · exact Finset.sum_congr rfl fun d _ => congrArg₂ (· * ·)
      (og_congr _ _ _ (fun q k => ldT x3 2 (by decide) _ q k) (fun d c => ldW x4 2 (by decide) _ d c) (fun d c => ldW x5 2 (by decide) _ d c)
        (fun d c => ldW x6 2 (by decide) _ d c) (fun d c => ldW x7 2 (by decide) _ d c) (fun d => ldB x8 2 (by decide) _ d) q d)
      (ldO x9 2 (by decide) _ c d)
  · exact Finset.sum_congr rfl fun d _ => congrArg₂ (· * ·)
      (og_congr _ _ _ (fun q k => ldT x3 3 (by decide) _ q k) (fun d c => ldW x4 3 (by decide) _ d c) (fun d c => ldW x5 3 (by decide) _ d c)
        (fun d c => ldW x6 3 (by decide) _ d c) (fun d c => ldW x7 3 (by decide) _ d c) (fun d => ldB x8 3 (by decide) _ d) q d)
      (ldO x9 3 (by decide) _ c d)

end Cert.KernelIdeal.Attn

end
-- ==== Proof.KBlock.lean ====
/-
  From blocks to the array: grid point t handles rows 16 t … 16 t + 15. Its input blocks are those rows of the two
  activations and of the mask and the whole bias and weight arrays (the gate bias, the output weights and the output
  bias as the host re-laid them before the call: [4,32] as [4,1,32], [128,128] as [4,128,32] with (h, c, d) = (c, 32 h + d),
  [128] as [1,128]); its output block is rows 16 t … 16 t + 15 of the result. The sixteen blocks tile the result, so
  the result array is the whole-array function of the arguments, and the run ends with it.
-/
import proofs.«423711_j1065151889535_3_alg».proof.Proof.ValueP
import proofs.«423711_j1065151889535_3_alg».proof.Proof.Spec
import proofs.«423711_j1065151889535_3_alg».proof.Proof.KBody
import Idealize.ShloMosaic.Lib.StableHlo.Run

noncomputable section

open scoped BigOperators

namespace Cert.KernelIdeal.Attn

open Cert.KernelIdeal Cert.KernelIdeal.Gen Idealize.ShloMosaic Idealize.ShloMosaic.TcCoe Idealize.SL.Sem Idealize.ShloMosaic.ValueIdx

variable (m : (ℓ : Loc nD τ sig) → Buf (Elt Ideal) ℓ) (ρ : Dev nD → PrngReg)

/-- Row n of grid point t's block is row 16 t + n of the arrays. -/
def row (t : Fin cfg0.N) (n : Fin 16) : Fin 256 :=
  ⟨t.val * 16 + n.val, by have := t.isLt; have hN : cfg0.N = 16 := N_0; have := n.isLt; omega⟩

/-- The windows that move with the grid (the two activations, the mask, the result): their block index is the point
    along axis 1 and zero on every other axis. Decided over the sixteen points. -/
theorem idx_move : ∀ t : Fin cfg0.N,
    (win0_0.index t (0 : Fin 4) = 0 ∧ win0_0.index t (1 : Fin 4) = t.val ∧ win0_0.index t (2 : Fin 4) = 0 ∧ win0_0.index t (3 : Fin 4) = 0)
    ∧ (win0_1.index t (0 : Fin 4) = 0 ∧ win0_1.index t (1 : Fin 4) = t.val ∧ win0_1.index t (2 : Fin 4) = 0 ∧ win0_1.index t (3 : Fin 4) = 0)
    ∧ (win0_2.index t (0 : Fin 5) = 0 ∧ win0_2.index t (1 : Fin 5) = t.val ∧ win0_2.index t (2 : Fin 5) = 0 ∧ win0_2.index t (3 : Fin 5) = 0 ∧ win0_2.index t (4 : Fin 5) = 0)
    ∧ (win0_11.index t (0 : Fin 4) = 0 ∧ win0_11.index t (1 : Fin 4) = t.val ∧ win0_11.index t (2 : Fin 4) = 0 ∧ win0_11.index t (3 : Fin 4) = 0) :=
  (by decide +kernel : ∀ t : Fin grid0.N, _)

/-- The windows that hold their arrays whole (the pair bias, the weights, the biases) stay at block zero. -/
theorem idx_still : ∀ t : Fin cfg0.N,
    (∀ a : Fin 5, win0_3.index t a = 0) ∧ (∀ a : Fin 3, win0_4.index t a = 0) ∧ (∀ a : Fin 3, win0_5.index t a = 0)
    ∧ (∀ a : Fin 3, win0_6.index t a = 0) ∧ (∀ a : Fin 3, win0_7.index t a = 0) ∧ (∀ a : Fin 3, win0_8.index t a = 0)
    ∧ (∀ a : Fin 3, win0_9.index t a = 0) ∧ (∀ a : Fin 2, win0_10.index t a = 0) :=
  (by decide +kernel : ∀ t : Fin grid0.N, _)

/-! ## The three arrays the host re-laid before the call -/

theorem v0_eq (c : Dev nD) : (V m c main_v0 : S4x1x32.Idx → EReal)
    = shapeCast S4x1x32 (m ((c : Thread nD τ).loc main_arg8)) shapeCasts_S4x32_S4x1x32 := by
  dsimp only [Gen.V, Gen.hostOps0]; after_results; rfl

theorem v1_eq (c : Dev nD) : (V m c main_v1 : S1x128.Idx → EReal)
    = shapeCast S1x128 (m ((c : Thread nD τ).loc main_arg10)) shapeCasts_S128_S1x128 := by
  dsimp only [Gen.V, Gen.hostOps0]; after_results; rfl

theorem v3_eq (c : Dev nD) : (V m c main_v3 : S4x128x32.Idx → EReal)
    = transpose S4x128x32 [1, 0, 2] (shapeCast S128x4x32 (m ((c : Thread nD τ).loc main_arg9)) shapeCasts_S128x128_S128x4x32)
        transposes_S128x4x32_S4x128x32_1_0_2 := by
  dsimp only [Gen.V, Gen.hostOps0]; after_results; rfl

/-- The gate bias as [4,1,32]: entry (h, 0, d) is entry (h, d). -/
theorem v0_apply (c : Dev nD) (h : Fin 4) (d : Fin 32) :
    (V m c main_v0 : S4x1x32.Idx → EReal) (ix3 h 0 d) = (m ((c : Thread nD τ).loc main_arg8) : S4x32.Idx → EReal) (ix2 h d) := by
  rw [v0_eq]
  refine shapeCast_apply _ _ (ix3 h 0 d) (ix2 h d) ?_
  rw [Shape.rowMajor_val_two, Shape.rowMajor_val_three]
  show h.val * 32 + d.val = (h.val * 1 + 0) * 32 + d.val
  omega

/-- The output bias as [1,128]: entry (0, c) is entry c. -/
theorem v1_apply (c : Dev nD) (ch : Fin 128) :
    (V m c main_v1 : S1x128.Idx → EReal) (ix2 0 ch) = (m ((c : Thread nD τ).loc main_arg10) : S128.Idx → EReal) (ix1 ch) := by
  rw [v1_eq]
  refine shapeCast_apply _ _ (ix2 0 ch) (ix1 ch) ?_
  rw [Shape.rowMajor_val_one, Shape.rowMajor_val_two]
  show ch.val = 0 * 128 + ch.val
  omega

/-- The output weights as [4,128,32]: entry (h, c, d) is entry (c, 32 h + d). -/
theorem v3_apply (c : Dev nD) (h : Fin 4) (ch : Fin 128) (d : Fin 32) :
    (V m c main_v3 : S4x128x32.Idx → EReal) (ix3 h ch d)
      = (m ((c : Thread nD τ).loc main_arg9) : S128x128.Idx → EReal) (ix2 ch (Cert.Attn.feat h d)) := by
  rw [v3_eq]
  refine (transpose_apply _ _ _ (ix3 h ch d) (ix3 ch h d) fun b => ?_).trans ?_
  · match b with
    | ⟨0, _⟩ => rfl
    | ⟨1, _⟩ => rfl
    | ⟨2, _⟩ => rfl
  refine shapeCast_apply _ _ (ix3 ch h d) (ix2 ch (Cert.Attn.feat h d)) ?_
  rw [Shape.rowMajor_val_two, Shape.rowMajor_val_three]
  show ch.val * 128 + (h.val * 32 + d.val) = (ch.val * 4 + h.val) * 32 + d.val
  omega

/-! ## Each input block read at an index is its array at the shifted index -/

theorem iblk0_apply (c : Dev nD) (t : Fin cfg0.N) (n : Fin 16) (q : Fin 256) (ch : Fin 128) :
    (iblk m c 0 t : Vec Ideal S1x16x256x128 .f32) (ix4 0 n q ch)
      = (m ((c : Thread nD τ).loc main_arg0) : S1x256x256x128.Idx → EReal) (ix4 0 (row t n) q ch) := by
  obtain ⟨⟨e0, e1, e2, e3⟩, -⟩ := idx_move t
  unfold iblk
  rw [View.read_apply]
  show V m c main_arg0 _ = _
  rw [V_main_arg0]
  refine congrArg _ (funext fun a => Fin.ext ?_)
  match a with
  | ⟨0, _⟩ => show win0_0.index t (0 : Fin 4) * 1 + 1 * 0 = 0; omega
  | ⟨1, _⟩ => show win0_0.index t (1 : Fin 4) * 16 + 1 * n.val = t.val * 16 + n.val; omega
  | ⟨2, _⟩ => show win0_0.index t (2 : Fin 4) * 256 + 1 * q.val = q.val; omega
  | ⟨3, _⟩ => show win0_0.index t (3 : Fin 4) * 128 + 1 * ch.val = ch.val; omega

theorem iblk1_apply (c : Dev nD) (t : Fin cfg0.N) (n : Fin 16) (q : Fin 256) (ch : Fin 128) :
    (iblk m c 1 t : Vec Ideal S1x16x256x128 .f32) (ix4 0 n q ch)
      = (m ((c : Thread nD τ).loc main_arg1) : S1x256x256x128.Idx → EReal) (ix4 0 (row t n) q ch) := by
  obtain ⟨-, ⟨e0, e1, e2, e3⟩, -⟩ := idx_move t
  unfold iblk
  rw [View.read_apply]
  show V m c main_arg1 _ = _
  rw [V_main_arg1]
  refine congrArg _ (funext fun a => Fin.ext ?_)
  match a with
  | ⟨0, _⟩ => show win0_1.index t (0 : Fin 4) * 1 + 1 * 0 = 0; omega
  | ⟨1, _⟩ => show win0_1.index t (1 : Fin 4) * 16 + 1 * n.val = t.val * 16 + n.val; omega
  | ⟨2, _⟩ => show win0_1.index t (2 : Fin 4) * 256 + 1 * q.val = q.val; omega
  | ⟨3, _⟩ => show win0_1.index t (3 : Fin 4) * 128 + 1 * ch.val = ch.val; omega

theorem iblk2_apply (c : Dev nD) (t : Fin cfg0.N) (n : Fin 16) (k : Fin 256) :
    (iblk m c 2 t : Vec Ideal S1x16x1x1x256 .f32) (ix5 0 n 0 0 k)
      = (m ((c : Thread nD τ).loc main_arg2) : S1x256x1x1x256.Idx → EReal) (ix5 0 (row t n) 0 0 k) := by
  obtain ⟨-, -, ⟨e0, e1, e2, e3, e4⟩, -⟩ := idx_move t
  unfold iblk
  rw [View.read_apply]
  show V m c main_arg2 _ = _
  rw [V_main_arg2]
  refine congrArg _ (funext fun a => Fin.ext ?_)
  match a with
  | ⟨0, _⟩ => show win0_2.index t (0 : Fin 5) * 1 + 1 * 0 = 0; omega
  | ⟨1, _⟩ => show win0_2.index t (1 : Fin 5) * 16 + 1 * n.val = t.val * 16 + n.val; omega
  | ⟨2, _⟩ => show win0_2.index t (2 : Fin 5) * 1 + 1 * 0 = 0; omega
  | ⟨3, _⟩ => show win0_2.index t (3 : Fin 5) * 1 + 1 * 0 = 0; omega
  | ⟨4, _⟩ => show win0_2.index t (4 : Fin 5) * 256 + 1 * k.val = k.val; omega

theorem iblk3_apply (c : Dev nD) (t : Fin cfg0.N) (y : S1x1x4x256x256.Idx) :
    (iblk m c 3 t : Vec Ideal S1x1x4x256x256 .f32) y = (m ((c : Thread nD τ).loc main_arg3) : S1x1x4x256x256.Idx → EReal) y := by
  obtain ⟨e, -⟩ := idx_still t
  unfold iblk
  rw [View.read_apply]
  show V m c main_arg3 _ = _
  rw [V_main_arg3]
  refine congrArg _ (funext fun a => Fin.ext ?_)
  match a with
  | ⟨0, _⟩ => show win0_3.index t (0 : Fin 5) * 1 + 1 * (y 0).val = (y 0).val; rw [e]; omega
  | ⟨1, _⟩ => show win0_3.index t (1 : Fin 5) * 1 + 1 * (y 1).val = (y 1).val; rw [e]; omega
  | ⟨2, _⟩ => show win0_3.index t (2 : Fin 5) * 4 + 1 * (y 2).val = (y 2).val; rw [e]; omega
  | ⟨3, _⟩ => show win0_3.index t (3 : Fin 5) * 256 + 1 * (y 3).val = (y 3).val; rw [e]; omega
  | ⟨4, _⟩ => show win0_3.index t (4 : Fin 5) * 256 + 1 * (y 4).val = (y 4).val; rw [e]; omega

theorem iblk4_apply (c : Dev nD) (t : Fin cfg0.N) (y : S4x32x128.Idx) :
    (iblk m c 4 t : Vec Ideal S4x32x128 .f32) y = (m ((c : Thread nD τ).loc main_arg4) : S4x32x128.Idx → EReal) y := by
  obtain ⟨-, e, -⟩ := idx_still t
  unfold iblk
  rw [View.read_apply]
  show V m c main_arg4 _ = _
  rw [V_main_arg4]
  refine congrArg _ (funext fun a => Fin.ext ?_)
  match a with
  | ⟨0, _⟩ => show win0_4.index t (0 : Fin 3) * 4 + 1 * (y 0).val = (y 0).val; rw [e]; omega
  | ⟨1, _⟩ => show win0_4.index t (1 : Fin 3) * 32 + 1 * (y 1).val = (y 1).val; rw [e]; omega
  | ⟨2, _⟩ => show win0_4.index t (2 : Fin 3) * 128 + 1 * (y 2).val = (y 2).val; rw [e]; omega

theorem iblk5_apply (c : Dev nD) (t : Fin cfg0.N) (y : S4x32x128.Idx) :
    (iblk m c 5 t : Vec Ideal S4x32x128 .f32) y = (m ((c : Thread nD τ).loc main_arg5) : S4x32x128.Idx → EReal) y := by
  obtain ⟨-, -, e, -⟩ := idx_still t
  unfold iblk
  rw [View.read_apply]
  show V m c main_arg5 _ = _
  rw [V_main_arg5]
  refine congrArg _ (funext fun a => Fin.ext ?_)
  match a with
  | ⟨0, _⟩ => show win0_5.index t (0 : Fin 3) * 4 + 1 * (y 0).val = (y 0).val; rw [e]; omega
  | ⟨1, _⟩ => show win0_5.index t (1 : Fin 3) * 32 + 1 * (y 1).val = (y 1).val; rw [e]; omega
  | ⟨2, _⟩ => show win0_5.index t (2 : Fin 3) * 128 + 1 * (y 2).val = (y 2).val; rw [e]; omega

theorem iblk6_apply (c : Dev nD) (t : Fin cfg0.N) (y : S4x32x128.Idx) :
    (iblk m c 6 t : Vec Ideal S4x32x128 .f32) y = (m ((c : Thread nD τ).loc main_arg6) : S4x32x128.Idx → EReal) y := by
  obtain ⟨-, -, -, e, -⟩ := idx_still t
  unfold iblk
  rw [View.read_apply]
  show V m c main_arg6 _ = _
  rw [V_main_arg6]
  refine congrArg _ (funext fun a => Fin.ext ?_)
  match a with
  | ⟨0, _⟩ => show win0_6.index t (0 : Fin 3) * 4 + 1 * (y 0).val = (y 0).val; rw [e]; omega
  | ⟨1, _⟩ => show win0_6.index t (1 : Fin 3) * 32 + 1 * (y 1).val = (y 1).val; rw [e]; omega
  | ⟨2, _⟩ => show win0_6.index t (2 : Fin 3) * 128 + 1 * (y 2).val = (y 2).val; rw [e]; omega

theorem iblk7_apply (c : Dev nD) (t : Fin cfg0.N) (y : S4x32x128.Idx) :
    (iblk m c 7 t : Vec Ideal S4x32x128 .f32) y = (m ((c : Thread nD τ).loc main_arg7) : S4x32x128.Idx → EReal) y := by
  obtain ⟨-, -, -, -, e, -⟩ := idx_still t
  unfold iblk
  rw [View.read_apply]
  show V m c main_arg7 _ = _
  rw [V_main_arg7]
  refine congrArg _ (funext fun a => Fin.ext ?_)
  match a with
  | ⟨0, _⟩ => show win0_7.index t (0 : Fin 3) * 4 + 1 * (y 0).val = (y 0).val; rw [e]; omega
  | ⟨1, _⟩ => show win0_7.index t (1 : Fin 3) * 32 + 1 * (y 1).val = (y 1).val; rw [e]; omega
  | ⟨2, _⟩ => show win0_7.index t (2 : Fin 3) * 128 + 1 * (y 2).val = (y 2).val; rw [e]; omega

theorem iblk8_apply (c : Dev nD) (t : Fin cfg0.N) (y : S4x1x32.Idx) :
    (iblk m c 8 t : Vec Ideal S4x1x32 .f32) y = (V m c main_v0 : S4x1x32.Idx → EReal) y := by
  obtain ⟨-, -, -, -, -, e, -⟩ := idx_still t
  unfold iblk
  rw [View.read_apply]
  show V m c main_v0 _ = _
  refine congrArg _ (funext fun a => Fin.ext ?_)
  match a with
  | ⟨0, _⟩ => show win0_8.index t (0 : Fin 3) * 4 + 1 * (y 0).val = (y 0).val; rw [e]; omega
  | ⟨1, _⟩ => show win0_8.index t (1 : Fin 3) * 1 + 1 * (y 1).val = (y 1).val; rw [e]; omega
  | ⟨2, _⟩ => show win0_8.index t (2 : Fin 3) * 32 + 1 * (y 2).val = (y 2).val; rw [e]; omega

theorem iblk9_apply (c : Dev nD) (t : Fin cfg0.N) (y : S4x128x32.Idx) :
    (iblk m c 9 t : Vec Ideal S4x128x32 .f32) y = (V m c main_v3 : S4x128x32.Idx → EReal) y := by
  obtain ⟨-, -, -, -, -, -, e, -⟩ := idx_still t
  unfold iblk
  rw [View.read_apply]
  show V m c main_v3 _ = _
  refine congrArg _ (funext fun a => Fin.ext ?_)
  match a with
  | ⟨0, _⟩ => show win0_9.index t (0 : Fin 3) * 4 + 1 * (y 0).val = (y 0).val; rw [e]; omega
  | ⟨1, _⟩ => show win0_9.index t (1 : Fin 3) * 128 + 1 * (y 1).val = (y 1).val; rw [e]; omega
  | ⟨2, _⟩ => show win0_9.index t (2 : Fin 3) * 32 + 1 * (y 2).val = (y 2).val; rw [e]; omega

theorem iblk10_apply (c : Dev nD) (t : Fin cfg0.N) (y : S1x128.Idx) :
    (iblk m c 10 t : Vec Ideal S1x128 .f32) y = (V m c main_v1 : S1x128.Idx → EReal) y := by
  obtain ⟨-, -, -, -, -, -, -, e⟩ := idx_still t
  unfold iblk
  rw [View.read_apply]
  show V m c main_v1 _ = _
  refine congrArg _ (funext fun a => Fin.ext ?_)
  match a with
  | ⟨0, _⟩ => show win0_10.index t (0 : Fin 2) * 1 + 1 * (y 0).val = (y 0).val; rw [e]; omega
  | ⟨1, _⟩ => show win0_10.index t (1 : Fin 2) * 128 + 1 * (y 1).val = (y 1).val; rw [e]; omega

/-! ## One point's output block is its rows of the whole-array function -/

/-- If the input blocks are rows r(0) … r(15) of the two activations and of the mask, the whole bias and weight
    arrays, and the three re-laid arrays, then the body's output block at (0, n, q, c) is the whole-array function at
    (0, r(n), q, c). -/
theorem blk_entry (x0 x1 : Vec Ideal S1x16x256x128 .f32) (x2 : Vec Ideal S1x16x1x1x256 .f32) (x3 : Vec Ideal S1x1x4x256x256 .f32)
    (x4 x5 x6 x7 : Vec Ideal S4x32x128 .f32) (x8 : Vec Ideal S4x1x32 .f32) (x9 : Vec Ideal S4x128x32 .f32) (x10 : Vec Ideal S1x128 .f32)
    (a0 a1 : Cert.Attn.Arr ⟨4, ![1, 256, 256, 128]⟩) (a2 : Cert.Attn.Arr ⟨5, ![1, 256, 1, 1, 256]⟩) (a3 : Cert.Attn.Arr ⟨5, ![1, 1, 4, 256, 256]⟩)
    (a4 a5 a6 a7 : Cert.Attn.Arr ⟨3, ![4, 32, 128]⟩) (a8 : Cert.Attn.Arr ⟨2, ![4, 32]⟩) (a9 : Cert.Attn.Arr ⟨2, ![128, 128]⟩)
    (a10 : Cert.Attn.Arr ⟨1, ![128]⟩) (r : Fin 16 → Fin 256)
    (h0 : ∀ n q c, x0 (ix4 0 n q c) = a0 (ix4 0 (r n) q c)) (h1 : ∀ n k c, x1 (ix4 0 n k c) = a1 (ix4 0 (r n) k c))
    (h2 : ∀ n k, x2 (ix5 0 n 0 0 k) = a2 (ix5 0 (r n) 0 0 k)) (h3 : ∀ y, x3 y = a3 y)
    (h4 : ∀ y, x4 y = a4 y) (h5 : ∀ y, x5 y = a5 y) (h6 : ∀ y, x6 y = a6 y) (h7 : ∀ y, x7 y = a7 y)
    (h8 : ∀ h d, x8 (ix3 h 0 d) = a8 (ix2 h d)) (h9 : ∀ h c d, x9 (ix3 h c d) = a9 (ix2 c (Cert.Attn.feat h d)))
    (h10 : ∀ c, x10 (ix2 0 c) = a10 (ix1 c)) (n : Fin 16) (q : Fin 256) (c : Fin 128) :
    out0_11 x0 x1 x2 x3 x4 x5 x6 x7 x8 x9 x10 (ix4 0 n q c)
      = Cert.Attn.G a0 a1 a2 a3 a4 a5 a6 a7 a8 a9 a10 (ix4 0 (r n) q c) := by
  rw [body_apply, Cert.Attn.G_apply]
  simp only [ogB, Cert.Attn.ogA, h0, h1, h2, h3, h4, h5, h6, h7, h8, h9, h10]

/-- What grid point t writes back is block t of the whole-array function of the arguments. -/
theorem flushed_eq (c : Dev nD) (t : Fin cfg0.N) :
    (dats m 0 c).flushed 11 t = ((cfg0.win 11).blk t).view.read (Elt Ideal)
      (Cert.Attn.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) := by
  obtain ⟨-, -, -, ⟨e0, e1, e2, e3⟩⟩ := idx_move t
  rw [Cert.KernelIdeal.ValueP.flushed11]
  funext j
  revert j
  show ∀ j : S1x16x256x128.Idx, out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t) j
    = Cert.Attn.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (((cfg0.win 11).blk t).view.emb j)
  intro j
  obtain ⟨a, n, q, ch, rfl⟩ : ∃ (a : Fin 1) (n : Fin 16) (q : Fin 256) (ch : Fin 128), j = ix4 a n q ch :=
    ⟨j 0, j 1, j 2, j 3, eq_ix4 j⟩
  obtain rfl : a = 0 := Subsingleton.elim _ _
  refine (blk_entry _ _ _ _ _ _ _ _ _ _ _ (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (row t)
    (iblk0_apply m c t) (iblk1_apply m c t) (iblk2_apply m c t) (iblk3_apply m c t) (iblk4_apply m c t) (iblk5_apply m c t)
    (iblk6_apply m c t) (iblk7_apply m c t) (fun h d => (iblk8_apply m c t _).trans (v0_apply m c h d))
    (fun h c' d => (iblk9_apply m c t _).trans (v3_apply m c h c' d)) (fun c' => (iblk10_apply m c t _).trans (v1_apply m c c'))
    n q ch).trans (congrArg _ (funext fun a => Fin.ext ?_))
  match a with
  | ⟨0, _⟩ => show 0 = win0_11.index t (0 : Fin 4) * 1 + 1 * 0; omega
  | ⟨1, _⟩ => show t.val * 16 + n.val = win0_11.index t (1 : Fin 4) * 16 + 1 * n.val; omega
  | ⟨2, _⟩ => show q.val = win0_11.index t (2 : Fin 4) * 256 + 1 * q.val; omega
  | ⟨3, _⟩ => show ch.val = win0_11.index t (3 : Fin 4) * 128 + 1 * ch.val; omega

/-- Every entry of the result is in some point's block: row r is in the block of point r / 16. -/
theorem cover (i : S1x256x256x128.Idx) :
    ∃ t : Fin cfg0.N, (cfg0.win 11).flush t = true ∧ i ∈ ((cfg0.win 11).blk t).view.set := by
  have hN : cfg0.N = 16 := N_0
  have hi0 : (i 0).val < 1 := (i 0).isLt
  have hi1 : (i 1).val < 256 := (i 1).isLt
  have hi2 : (i 2).val < 256 := (i 2).isLt
  have hi3 : (i 3).val < 128 := (i 3).isLt
  obtain ⟨t, ht⟩ : ∃ t : Fin cfg0.N, t.val = (i 1).val / 16 := ⟨⟨(i 1).val / 16, by omega⟩, rfl⟩
  obtain ⟨-, -, -, ⟨e0, e1, e2, e3⟩⟩ := idx_move t
  refine ⟨t, flush0_11 t, ?_⟩
  show i ∈ ((View.whole main_v4).slice (win0_11.rect t)).set
  rw [View.set_slice_whole, Rect.mem_set_unit]
  intro a
  match a with
  | ⟨0, _⟩ => show win0_11.index t (0 : Fin 4) * 1 ≤ (i 0).val ∧ (i 0).val < win0_11.index t (0 : Fin 4) * 1 + 1; omega
  | ⟨1, _⟩ => show win0_11.index t (1 : Fin 4) * 16 ≤ (i 1).val ∧ (i 1).val < win0_11.index t (1 : Fin 4) * 16 + 16; omega
  | ⟨2, _⟩ => show win0_11.index t (2 : Fin 4) * 256 ≤ (i 2).val ∧ (i 2).val < win0_11.index t (2 : Fin 4) * 256 + 256; omega
  | ⟨3, _⟩ => show win0_11.index t (3 : Fin 4) * 128 ≤ (i 3).val ∧ (i 3).val < win0_11.index t (3 : Fin 4) * 128 + 128; omega

/-- The result array after the run is the whole-array function of the argument arrays. -/
theorem final (c : Dev nD) :
    (dats m 0 c).arrAt 11 cfg0.N
      = Cert.Attn.G (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) (m ((c : Thread nD τ).loc main_arg10)) :=
  (dats m 0 c).arrAt_eq_of_cover 11 _ (fun t _ => flushed_eq m c t) cover

/-- Every weakly fair execution of the idealized kernel terminates with the result at that function of the arguments,
    the arguments unchanged. -/
theorem run : θ_run defs (onTc (τ := τ) (main (F := Ideal))) ⟨m, fun _ => 0, ρ⟩ fun r => ∀ c : Dev nD,
      r.2.mem ((c : Thread nD τ).loc main_v4)
        = Cert.Attn.G (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) (m ((c : Thread nD τ).loc main_arg10))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1.trans (final m c), (h c).2⟩) (Cert.KernelIdeal.ValueP.run_blocks m ρ)

end Cert.KernelIdeal.Attn

end
-- ==== Proof.RefLogit.lean ====
/-
  The reference's attention probabilities, stage by stage: the query projection (weights on the left) scaled, the key
  projection, their product over the 32 features, plus the mask row broadcast over heads and query positions, plus the
  pair bias broadcast over rows, and the softmax over the key positions (maximum from −∞, compared with −∞ once more;
  the host's sum starts from the zero word). At (0, n, h, q, k) this is the softmax of row n, head h, query position q's
  logits, at k.
-/
import proofs.«423711_j1065151889535_3_alg».proof.Proof.Gen.ReferenceIdeal.Read
import proofs.«423711_j1065151889535_3_alg».proof.Proof.Spec
import Idealize.ShloMosaic.PureOps.Reduce

noncomputable section

open scoped BigOperators

namespace Cert.ReferenceIdeal.Attn

open Cert.ReferenceIdeal Cert.ReferenceIdeal.Gen Cert.ReferenceIdeal.Read Idealize.ShloMosaic Idealize.ShloMosaic.ValueIdx

section Stages

variable (x0 x1 : (⟨S1x256x256x128, .f32⟩ : BufTy).Contents (Elt Ideal)) (x2 : (⟨S1x256x1x1x256, .f32⟩ : BufTy).Contents (Elt Ideal))
  (x3 : (⟨S1x1x4x256x256, .f32⟩ : BufTy).Contents (Elt Ideal)) (x4 x5 : (⟨S4x32x128, .f32⟩ : BufTy).Contents (Elt Ideal))

/-- The query projection before its transpose, at (h, d, 0, n, q): the weight row (h, d) against the activation row
    (n, q), the weight on the left of each product. -/
theorem qproj_apply (h : Fin 4) (d : Fin 32) (n q : Fin 256) :
    val_main_v0 (F := Ideal) x0 x4 (ix5 h d 0 n q)
      = Cert.Attn.lin (fun c => x0 (ix4 0 n q c)) (fun c => x4 (ix3 h d c)) := by
  refine (val_main_v0_apply x0 x4 _).trans ?_
  unfold Cert.Attn.lin
  refine Finset.sum_congr rfl fun c _ => ?_
  refine (mul_comm _ _).trans ?_
  refine congrArg₂ (· * ·) (congrArg x0 ?_) (congrArg x4 ?_)
  · exact funext fun a => Fin.ext (by match a with | ⟨0, _⟩ => rfl | ⟨1, _⟩ => rfl | ⟨2, _⟩ => rfl | ⟨3, _⟩ => rfl)
  · exact funext fun a => Fin.ext (by match a with | ⟨0, _⟩ => rfl | ⟨1, _⟩ => rfl | ⟨2, _⟩ => rfl)

/-- The key projection before its transpose, at (h, d, 0, n, k). -/
theorem kproj_apply (h : Fin 4) (d : Fin 32) (n k : Fin 256) :
    val_main_v4 (F := Ideal) x1 x5 (ix5 h d 0 n k)
      = Cert.Attn.lin (fun c => x1 (ix4 0 n k c)) (fun c => x5 (ix3 h d c)) := by
  refine (val_main_v4_apply x1 x5 _).trans ?_
  unfold Cert.Attn.lin
  refine Finset.sum_congr rfl fun c _ => ?_
  refine (mul_comm _ _).trans ?_
  refine congrArg₂ (· * ·) (congrArg x1 ?_) (congrArg x5 ?_)
  · exact funext fun a => Fin.ext (by match a with | ⟨0, _⟩ => rfl | ⟨1, _⟩ => rfl | ⟨2, _⟩ => rfl | ⟨3, _⟩ => rfl)
  · exact funext fun a => Fin.ext (by match a with | ⟨0, _⟩ => rfl | ⟨1, _⟩ => rfl | ⟨2, _⟩ => rfl)

/-- The transposed query projection at (0, n, h, q, d). -/
theorem qprojT_apply (n : Fin 256) (h : Fin 4) (q : Fin 256) (d : Fin 32) :
    val_main_v1 (F := Ideal) x0 x4 (ix5 0 n h q d)
      = Cert.Attn.lin (fun c => x0 (ix4 0 n q c)) (fun c => x4 (ix3 h d c)) := by
  refine (val_main_v1_apply x0 x4 _).trans ?_
  refine (congrArg (val_main_v0 (F := Ideal) x0 x4) ?_).trans (qproj_apply x0 x4 h d n q)
  exact funext fun a => Fin.ext (by match a with | ⟨0, _⟩ => rfl | ⟨1, _⟩ => rfl | ⟨2, _⟩ => rfl | ⟨3, _⟩ => rfl | ⟨4, _⟩ => rfl)

/-- The transposed key projection at (0, n, h, k, d). -/
theorem kprojT_apply (n : Fin 256) (h : Fin 4) (k : Fin 256) (d : Fin 32) :
    val_main_v5 (F := Ideal) x1 x5 (ix5 0 n h k d)
      = Cert.Attn.lin (fun c => x1 (ix4 0 n k c)) (fun c => x5 (ix3 h d c)) := by
  refine (val_main_v5_apply x1 x5 _).trans ?_
  refine (congrArg (val_main_v4 (F := Ideal) x1 x5) ?_).trans (kproj_apply x1 x5 h d n k)
  exact funext fun a => Fin.ext (by match a with | ⟨0, _⟩ => rfl | ⟨1, _⟩ => rfl | ⟨2, _⟩ => rfl | ⟨3, _⟩ => rfl | ⟨4, _⟩ => rfl)

/-- The splat of the scale word is the scale everywhere. -/
theorem scale_apply (i : S1x256x4x256x32.Idx) : val_main_v2 (F := Ideal) i = Cert.Attn.sc :=
  (val_main_v2_apply i).trans rfl

/-- The scaled query projection at (0, n, h, q, d). -/
theorem qscaled_apply (n : Fin 256) (h : Fin 4) (q : Fin 256) (d : Fin 32) :
    val_main_v3 (F := Ideal) x0 x4 (ix5 0 n h q d)
      = Cert.Attn.lin (fun c => x0 (ix4 0 n q c)) (fun c => x4 (ix3 h d c)) * Cert.Attn.sc :=
  (val_main_v3_apply x0 x4 _).trans (congrArg₂ (· * ·) (qprojT_apply x0 x4 n h q d) (scale_apply _))

/-- Scaled query · key over the 32 features, at (0, n, h, q, k). -/
theorem qk_apply (n : Fin 256) (h : Fin 4) (q k : Fin 256) :
    val_main_v8 (F := Ideal) x0 x1 x4 x5 (ix5 0 n h q k)
      = ∑ d : Fin 32, (Cert.Attn.lin (fun c => x0 (ix4 0 n q c)) (fun c => x4 (ix3 h d c)) * Cert.Attn.sc)
          * Cert.Attn.lin (fun c => x1 (ix4 0 n k c)) (fun c => x5 (ix3 h d c)) := by
  refine (val_main_v8_apply x0 x1 x4 x5 _).trans ?_
  refine Finset.sum_congr rfl fun d _ => ?_
  refine congrArg₂ (· * ·)
    ((congrArg (val_main_v3 (F := Ideal) x0 x4) ?_).trans (qscaled_apply x0 x4 n h q d))
    ((congrArg (val_main_v5 (F := Ideal) x1 x5) ?_).trans (kprojT_apply x1 x5 n h k d))
  · exact funext fun a => Fin.ext (by match a with | ⟨0, _⟩ => rfl | ⟨1, _⟩ => rfl | ⟨2, _⟩ => rfl | ⟨3, _⟩ => rfl | ⟨4, _⟩ => rfl)
  · exact funext fun a => Fin.ext (by match a with | ⟨0, _⟩ => rfl | ⟨1, _⟩ => rfl | ⟨2, _⟩ => rfl | ⟨3, _⟩ => rfl | ⟨4, _⟩ => rfl)

/-- The mask broadcast over heads and query positions, at (0, n, h, q, k): the mask row n at k. -/
theorem mask_apply (n : Fin 256) (h : Fin 4) (q k : Fin 256) :
    val_main_v9 (F := Ideal) x2 (ix5 0 n h q k) = x2 (ix5 0 n 0 0 k) := by
  refine (val_main_v9_apply x2 _).trans (congrArg x2 ?_)
  exact funext fun a => Fin.ext (by match a with | ⟨0, _⟩ => rfl | ⟨1, _⟩ => rfl | ⟨2, _⟩ => rfl | ⟨3, _⟩ => rfl | ⟨4, _⟩ => rfl)

/-- The pair bias broadcast over rows, at (0, n, h, q, k): head h's bias at (q, k). -/
theorem bias_apply (n : Fin 256) (h : Fin 4) (q k : Fin 256) :
    val_main_v11 (F := Ideal) x3 (ix5 0 n h q k) = x3 (ix5 0 0 h q k) := by
  refine (val_main_v11_apply x3 _).trans (congrArg x3 ?_)
  exact funext fun a => Fin.ext (by match a with | ⟨0, _⟩ => rfl | ⟨1, _⟩ => rfl | ⟨2, _⟩ => rfl | ⟨3, _⟩ => rfl | ⟨4, _⟩ => rfl)

/-- Row n, head h's logits, from the argument arrays. -/
abbrev lg (n : Fin 256) (h : Fin 4) : Fin 256 → Fin 256 → EReal :=
  Cert.Attn.logit (fun q c => x0 (ix4 0 n q c)) (fun k c => x1 (ix4 0 n k c)) (fun _ k => x2 (ix5 0 n 0 0 k))
    (fun q k => x3 (ix5 0 0 h q k)) (fun d c => x4 (ix3 h d c)) (fun d c => x5 (ix3 h d c))

/-- The logits stage at (0, n, h, q, k): product, plus mask, plus bias, in that order. -/
theorem logit_apply (n : Fin 256) (h : Fin 4) (q k : Fin 256) :
    val_main_v12 (F := Ideal) x0 x1 x2 x3 x4 x5 (ix5 0 n h q k) = lg x0 x1 x2 x3 x4 x5 n h q k :=
  (val_main_v12_apply x0 x1 x2 x3 x4 x5 _).trans
    (congrArg₂ (· + ·)
      ((val_main_v10_apply x0 x1 x2 x4 x5 _).trans
        (congrArg₂ (· + ·) (qk_apply x0 x1 x4 x5 n h q k) (mask_apply x2 n h q k)))
      (bias_apply x3 n h q k))

/-- The row maximum at (0, n, h, q): the fold of max from −∞ over the key positions. -/
theorem rowmax_apply (n : Fin 256) (h : Fin 4) (q : Fin 256) :
    val_main_v13 (F := Ideal) x0 x1 x2 x3 x4 x5 (ix4 0 n h q)
      = (Finset.univ : Finset (Fin 256)).fold max Cert.Attn.ninf (lg x0 x1 x2 x3 x4 x5 n h q) := by
  refine (Host.reduce_eq_fold_single (FloatOps.maximumf (F := Ideal) (φ := .f32)) (val_main_v12 (F := Ideal) x0 x1 x2 x3 x4 x5)
    (val_main_cst_0 (F := Ideal)) reducesTo_S1x256x4x256x256_S1x256x4x256_d4 (by decide) h_S_ (ix4 0 n h q)).trans ?_
  refine congrArg (fun f : Fin 256 → EReal => (Finset.univ : Finset (Fin 256)).fold max Cert.Attn.ninf f) (funext fun k => ?_)
  refine (congrArg (val_main_v12 (F := Ideal) x0 x1 x2 x3 x4 x5) ?_).trans (logit_apply x0 x1 x2 x3 x4 x5 n h q k)
  exact funext fun a => Fin.ext (by match a with | ⟨0, _⟩ => rfl | ⟨1, _⟩ => rfl | ⟨2, _⟩ => rfl | ⟨3, _⟩ => rfl | ⟨4, _⟩ => rfl)

/-- The splat of the word of −∞ is −∞ everywhere. -/
theorem ninf_apply (i : S1x256x4x256.Idx) : val_main_v14 (F := Ideal) i = Cert.Attn.ninf :=
  (val_main_v14_apply i).trans rfl

/-- The subtracted maximum: −∞ compared once more with the row maximum. -/
abbrev mx (n : Fin 256) (h : Fin 4) (q : Fin 256) : EReal :=
  max Cert.Attn.ninf ((Finset.univ : Finset (Fin 256)).fold max Cert.Attn.ninf (lg x0 x1 x2 x3 x4 x5 n h q))

theorem max_apply (n : Fin 256) (h : Fin 4) (q : Fin 256) :
    val_main_v15 (F := Ideal) x0 x1 x2 x3 x4 x5 (ix4 0 n h q) = mx x0 x1 x2 x3 x4 x5 n h q :=
  (val_main_v15_apply x0 x1 x2 x3 x4 x5 _).trans (congrArg₂ max (ninf_apply _) (rowmax_apply x0 x1 x2 x3 x4 x5 n h q))

/-- The maximum broadcast back over the key positions, at (0, n, h, q, k). -/
theorem maxB_apply (n : Fin 256) (h : Fin 4) (q k : Fin 256) :
    val_main_v17 (F := Ideal) x0 x1 x2 x3 x4 x5 (ix5 0 n h q k) = mx x0 x1 x2 x3 x4 x5 n h q := by
  refine (val_main_v17_apply x0 x1 x2 x3 x4 x5 _).trans ?_
  refine (val_main_v16_apply x0 x1 x2 x3 x4 x5 _).trans ?_
  refine (congrArg (val_main_v15 (F := Ideal) x0 x1 x2 x3 x4 x5) ?_).trans (max_apply x0 x1 x2 x3 x4 x5 n h q)
  exact funext fun a => Fin.ext (by match a with | ⟨0, _⟩ => rfl | ⟨1, _⟩ => rfl | ⟨2, _⟩ => rfl | ⟨3, _⟩ => rfl)

/-- The exponentials at (0, n, h, q, k). -/
theorem exp_apply (n : Fin 256) (h : Fin 4) (q k : Fin 256) :
    val_main_v19 (F := Ideal) x0 x1 x2 x3 x4 x5 (ix5 0 n h q k)
      = Ideal.exp (lg x0 x1 x2 x3 x4 x5 n h q k - mx x0 x1 x2 x3 x4 x5 n h q) :=
  (val_main_v19_apply x0 x1 x2 x3 x4 x5 _).trans
    (congrArg Ideal.exp
      ((val_main_v18_apply x0 x1 x2 x3 x4 x5 _).trans
        (congrArg₂ (· - ·) (logit_apply x0 x1 x2 x3 x4 x5 n h q k) (maxB_apply x0 x1 x2 x3 x4 x5 n h q k))))

/-- The row sum of the exponentials at (0, n, h, q): the host's sum starts from zero. -/
theorem rowsum_apply (n : Fin 256) (h : Fin 4) (q : Fin 256) :
    val_main_v20 (F := Ideal) x0 x1 x2 x3 x4 x5 (ix4 0 n h q)
      = ∑ k : Fin 256, Ideal.exp (lg x0 x1 x2 x3 x4 x5 n h q k - mx x0 x1 x2 x3 x4 x5 n h q) := by
  refine (val_main_v20_apply x0 x1 x2 x3 x4 x5 _).trans ?_
  refine (congrArg (· + _) ((val_main_cst_2_apply (F := Ideal) _).trans Ideal.ofBits_zero_f32)).trans ?_
  refine (zero_add _).trans ?_
  refine Finset.sum_congr rfl fun k _ => ?_
  refine (congrArg (val_main_v19 (F := Ideal) x0 x1 x2 x3 x4 x5) ?_).trans (exp_apply x0 x1 x2 x3 x4 x5 n h q k)
  exact funext fun a => Fin.ext (by match a with | ⟨0, _⟩ => rfl | ⟨1, _⟩ => rfl | ⟨2, _⟩ => rfl | ⟨3, _⟩ => rfl | ⟨4, _⟩ => rfl)

/-- The row sum broadcast back over the key positions, at (0, n, h, q, k). -/
theorem rowsumB_apply (n : Fin 256) (h : Fin 4) (q k : Fin 256) :
    val_main_v22 (F := Ideal) x0 x1 x2 x3 x4 x5 (ix5 0 n h q k)
      = ∑ k' : Fin 256, Ideal.exp (lg x0 x1 x2 x3 x4 x5 n h q k' - mx x0 x1 x2 x3 x4 x5 n h q) := by
  refine (val_main_v22_apply x0 x1 x2 x3 x4 x5 _).trans ?_
  refine (val_main_v21_apply x0 x1 x2 x3 x4 x5 _).trans ?_
  refine (congrArg (val_main_v20 (F := Ideal) x0 x1 x2 x3 x4 x5) ?_).trans (rowsum_apply x0 x1 x2 x3 x4 x5 n h q)
  exact funext fun a => Fin.ext (by match a with | ⟨0, _⟩ => rfl | ⟨1, _⟩ => rfl | ⟨2, _⟩ => rfl | ⟨3, _⟩ => rfl)

end Stages

/-- The probabilities stage at (0, n, h, q, k). -/
theorem probs_apply (x0 x1 : (⟨S1x256x256x128, .f32⟩ : BufTy).Contents (Elt Ideal)) (x2 : (⟨S1x256x1x1x256, .f32⟩ : BufTy).Contents (Elt Ideal))
    (x3 : (⟨S1x1x4x256x256, .f32⟩ : BufTy).Contents (Elt Ideal)) (x4 x5 : (⟨S4x32x128, .f32⟩ : BufTy).Contents (Elt Ideal))
    (n : Fin 256) (h : Fin 4) (q k : Fin 256) :
    val_main_v23 (F := Ideal) x0 x1 x2 x3 x4 x5 (ix5 0 n h q k)
      = Cert.Attn.smax (Cert.Attn.logit (fun q c => x0 (ix4 0 n q c)) (fun k c => x1 (ix4 0 n k c)) (fun _ k => x2 (ix5 0 n 0 0 k))
          (fun q k => x3 (ix5 0 0 h q k)) (fun d c => x4 (ix3 h d c)) (fun d c => x5 (ix3 h d c)) q) k := by
  unfold Cert.Attn.smax
  exact (val_main_v23_apply x0 x1 x2 x3 x4 x5 _).trans
    (congrArg₂ Ideal.div (exp_apply x0 x1 x2 x3 x4 x5 n h q k) (rowsumB_apply x0 x1 x2 x3 x4 x5 n h q k))

end Cert.ReferenceIdeal.Attn

end
-- ==== Proof.RefG.lean ====
/-
  The reference's result, stage by stage, is the whole-array function: its projections (weights on the left for the
  query, key and value, activations on the left for the gate), the scaled query · key plus mask plus pair bias, the
  softmax over the key positions, probabilities · values, the sigmoid gate spelt 1 / (1 + exp (−x)), the 128 gated
  features against the output weights in ONE sum, plus the output bias — regrouped by head to meet the head-by-head form.
-/
import proofs.«423711_j1065151889535_3_alg».proof.Proof.Gen.ReferenceIdeal.Read
import proofs.«423711_j1065151889535_3_alg».proof.Proof.Spec
import proofs.«423711_j1065151889535_3_alg».proof.Proof.RefLogit
import Idealize.ShloMosaic.PureOps.Reduce

noncomputable section

open scoped BigOperators

namespace Cert.ReferenceIdeal.Attn

open Cert.ReferenceIdeal Cert.ReferenceIdeal.Gen Cert.ReferenceIdeal.Read Idealize.ShloMosaic Idealize.ShloMosaic.ValueIdx

/-- The word 0x3F800000 is the extended real 1: sign +, exponent 127 − 127 = 0, fraction 0. -/
theorem one_word : Ideal.ofBits .f32 0x3F800000#32 = 1 := by
  simp [Ideal.ofBits, Ideal.ieee, -EReal.coe_mul]; norm_num

section Stages

variable (x0 x1 : (⟨S1x256x256x128, .f32⟩ : BufTy).Contents (Elt Ideal)) (x2 : (⟨S1x256x1x1x256, .f32⟩ : BufTy).Contents (Elt Ideal))
  (x3 : (⟨S1x1x4x256x256, .f32⟩ : BufTy).Contents (Elt Ideal)) (x4 x5 x6 x7 : (⟨S4x32x128, .f32⟩ : BufTy).Contents (Elt Ideal))
  (x8 : (⟨S4x32, .f32⟩ : BufTy).Contents (Elt Ideal)) (x9 : (⟨S128x128, .f32⟩ : BufTy).Contents (Elt Ideal))
  (x10 : (⟨S128, .f32⟩ : BufTy).Contents (Elt Ideal))

/-- The value projection, transposed to (0, n, h, k, d): the weights stand on the left in the reference's product, so
    each term is commuted to meet `lin`'s activation · weight. -/
theorem v7_at (n : Fin 256) (h : Fin 4) (k : Fin 256) (d : Fin 32) :
    val_main_v7 (F := Ideal) x1 x6 (ix5 0 n h k d)
      = Cert.Attn.lin (fun c => x1 (ix4 0 n k c)) (fun c => x6 (ix3 h d c)) := by
  refine (val_main_v7_apply x1 x6 _).trans ?_
  refine (val_main_v6_apply x1 x6 _).trans ?_
  unfold Cert.Attn.lin
  refine Finset.sum_congr rfl fun c _ => ?_
  refine (mul_comm _ _).trans ?_
  refine congrArg₂ (· * ·) (congrArg x1 ?_) (congrArg x6 ?_)
  · exact funext fun a => Fin.ext (by match a with | ⟨0, _⟩ => rfl | ⟨1, _⟩ => rfl | ⟨2, _⟩ => rfl | ⟨3, _⟩ => rfl)
  · exact funext fun a => Fin.ext (by match a with | ⟨0, _⟩ => rfl | ⟨1, _⟩ => rfl | ⟨2, _⟩ => rfl)

/-- Probabilities · values at (0, n, h, q, d): the sum over the 256 key positions. -/
theorem v24_at (n : Fin 256) (h : Fin 4) (q : Fin 256) (d : Fin 32) :
    val_main_v24 (F := Ideal) x0 x1 x2 x3 x4 x5 x6 (ix5 0 n h q d)
      = ∑ k : Fin 256, Cert.Attn.smax (Cert.Attn.logit (fun q c => x0 (ix4 0 n q c)) (fun k c => x1 (ix4 0 n k c)) (fun _ k => x2 (ix5 0 n 0 0 k))
          (fun q k => x3 (ix5 0 0 h q k)) (fun d c => x4 (ix3 h d c)) (fun d c => x5 (ix3 h d c)) q) k
        * Cert.Attn.lin (fun c => x1 (ix4 0 n k c)) (fun c => x6 (ix3 h d c)) := by
  refine (val_main_v24_apply x0 x1 x2 x3 x4 x5 x6 _).trans ?_
  refine Finset.sum_congr rfl fun k _ => ?_
  refine congrArg₂ (· * ·) ?_ ?_
  · refine (congrArg (val_main_v23 (F := Ideal) x0 x1 x2 x3 x4 x5) ?_).trans (probs_apply x0 x1 x2 x3 x4 x5 n h q k)
    exact funext fun a => Fin.ext (by match a with | ⟨0, _⟩ => rfl | ⟨1, _⟩ => rfl | ⟨2, _⟩ => rfl | ⟨3, _⟩ => rfl | ⟨4, _⟩ => rfl)
  · refine (congrArg (val_main_v7 (F := Ideal) x1 x6) ?_).trans (v7_at x1 x6 n h k d)
    exact funext fun a => Fin.ext (by match a with | ⟨0, _⟩ => rfl | ⟨1, _⟩ => rfl | ⟨2, _⟩ => rfl | ⟨3, _⟩ => rfl | ⟨4, _⟩ => rfl)

/-- The same, with the head axis moved behind the query axis: (0, n, q, h, d). -/
theorem v25_at (n q : Fin 256) (h : Fin 4) (d : Fin 32) :
    val_main_v25 (F := Ideal) x0 x1 x2 x3 x4 x5 x6 (ix5 0 n q h d)
      = ∑ k : Fin 256, Cert.Attn.smax (Cert.Attn.logit (fun q c => x0 (ix4 0 n q c)) (fun k c => x1 (ix4 0 n k c)) (fun _ k => x2 (ix5 0 n 0 0 k))
          (fun q k => x3 (ix5 0 0 h q k)) (fun d c => x4 (ix3 h d c)) (fun d c => x5 (ix3 h d c)) q) k
        * Cert.Attn.lin (fun c => x1 (ix4 0 n k c)) (fun c => x6 (ix3 h d c)) := by
  refine (val_main_v25_apply x0 x1 x2 x3 x4 x5 x6 _).trans ?_
  refine (congrArg (val_main_v24 (F := Ideal) x0 x1 x2 x3 x4 x5 x6) ?_).trans (v24_at x0 x1 x2 x3 x4 x5 x6 n h q d)
  exact funext fun a => Fin.ext (by match a with | ⟨0, _⟩ => rfl | ⟨1, _⟩ => rfl | ⟨2, _⟩ => rfl | ⟨3, _⟩ => rfl | ⟨4, _⟩ => rfl)

/-- The gate projection at (0, n, q, h, d): activations on the left, as in `lin`. -/
theorem v26_at (n q : Fin 256) (h : Fin 4) (d : Fin 32) :
    val_main_v26 (F := Ideal) x0 x7 (ix5 0 n q h d)
      = Cert.Attn.lin (fun c => x0 (ix4 0 n q c)) (fun c => x7 (ix3 h d c)) := by
  refine (val_main_v26_apply x0 x7 _).trans ?_
  unfold Cert.Attn.lin
  refine Finset.sum_congr rfl fun c _ => ?_
  refine congrArg₂ (· * ·) (congrArg x0 ?_) (congrArg x7 ?_)
  · exact funext fun a => Fin.ext (by match a with | ⟨0, _⟩ => rfl | ⟨1, _⟩ => rfl | ⟨2, _⟩ => rfl | ⟨3, _⟩ => rfl)
  · exact funext fun a => Fin.ext (by match a with | ⟨0, _⟩ => rfl | ⟨1, _⟩ => rfl | ⟨2, _⟩ => rfl)

/-- The gate bias, broadcast over rows and query positions. -/
theorem v28_at (n q : Fin 256) (h : Fin 4) (d : Fin 32) :
    val_main_v28 (F := Ideal) x8 (ix5 0 n q h d) = x8 (ix2 h d) := by
  refine (val_main_v28_apply x8 _).trans ?_
  refine (val_main_v27_apply x8 _).trans ?_
  refine congrArg x8 ?_
  exact funext fun a => Fin.ext (by match a with | ⟨0, _⟩ => rfl | ⟨1, _⟩ => rfl)

/-- The gate: 1 / (1 + exp (−(projection + bias))) is the logistic function of projection + bias. -/
theorem v35_at (n q : Fin 256) (h : Fin 4) (d : Fin 32) :
    val_main_v35 (F := Ideal) x0 x7 x8 (ix5 0 n q h d)
      = Ideal.logistic (Cert.Attn.lin (fun c => x0 (ix4 0 n q c)) (fun c => x7 (ix3 h d c)) + x8 (ix2 h d)) := by
  have e29 : val_main_v29 (F := Ideal) x0 x7 x8 (ix5 0 n q h d)
      = Cert.Attn.lin (fun c => x0 (ix4 0 n q c)) (fun c => x7 (ix3 h d c)) + x8 (ix2 h d) :=
    (val_main_v29_apply x0 x7 x8 _).trans (congrArg₂ (· + ·) (v26_at x0 x7 n q h d) (v28_at x8 n q h d))
  have e31 : val_main_v31 (F := Ideal) x0 x7 x8 (ix5 0 n q h d)
      = Ideal.exp (-(Cert.Attn.lin (fun c => x0 (ix4 0 n q c)) (fun c => x7 (ix3 h d c)) + x8 (ix2 h d))) :=
    (val_main_v31_apply x0 x7 x8 _).trans
      (congrArg Ideal.exp ((val_main_v30_apply x0 x7 x8 _).trans (congrArg Neg.neg e29)))
  have e32 : val_main_v32 (F := Ideal) (ix5 (0 : Fin 1) n q h d) = 1 :=
    (val_main_v32_apply _).trans ((val_main_cst_3_apply _).trans one_word)
  have e34 : val_main_v34 (F := Ideal) (ix5 (0 : Fin 1) n q h d) = 1 :=
    (val_main_v34_apply _).trans ((val_main_cst_4_apply _).trans one_word)
  have e33 : val_main_v33 (F := Ideal) x0 x7 x8 (ix5 0 n q h d)
      = 1 + Ideal.exp (-(Cert.Attn.lin (fun c => x0 (ix4 0 n q c)) (fun c => x7 (ix3 h d c)) + x8 (ix2 h d))) :=
    (val_main_v33_apply x0 x7 x8 _).trans (congrArg₂ (· + ·) e32 e31)
  refine (val_main_v35_apply x0 x7 x8 _).trans ?_
  unfold Ideal.logistic
  exact congrArg₂ Ideal.div e34 e33

/-- The gated feature at (0, n, q, h, d) is the specification's. -/
theorem v36_at (n q : Fin 256) (h : Fin 4) (d : Fin 32) :
    val_main_v36 (F := Ideal) x0 x1 x2 x3 x4 x5 x6 x7 x8 (ix5 0 n q h d)
      = Cert.Attn.ogA x0 x1 x2 x3 x4 x5 x6 x7 x8 n h q d := by
  refine (val_main_v36_apply x0 x1 x2 x3 x4 x5 x6 x7 x8 _).trans ?_
  unfold Cert.Attn.ogA Cert.Attn.og
  exact congrArg₂ (· * ·) (v25_at x0 x1 x2 x3 x4 x5 x6 n q h d) (v35_at x0 x7 x8 n q h d)

/-- The 4 × 32 features laid out as 128: feature e is head e / 32, place e % 32. -/
theorem v37_at (n q : Fin 256) (e : Fin 128) :
    val_main_v37 (F := Ideal) x0 x1 x2 x3 x4 x5 x6 x7 x8 (ix4 0 n q e)
      = Cert.Attn.ogA x0 x1 x2 x3 x4 x5 x6 x7 x8 n (Cert.Attn.headOf e) q (Cert.Attn.subOf e) := by
  refine (val_main_v37_apply x0 x1 x2 x3 x4 x5 x6 x7 x8 _).trans ?_
  refine (congrArg (val_main_v36 (F := Ideal) x0 x1 x2 x3 x4 x5 x6 x7 x8) ?_).trans
    (v36_at x0 x1 x2 x3 x4 x5 x6 x7 x8 n q (Cert.Attn.headOf e) (Cert.Attn.subOf e))
  have hn := n.isLt
  have hq := q.isLt
  have he := e.isLt
  exact funext fun a => Fin.ext (by
    match a with
    | ⟨0, _⟩ => rfl
    | ⟨1, _⟩ => show (((0 * 256 + n.val) * 256 + q.val) * 128 + e.val) / 32768 % 256 = n.val; omega
    | ⟨2, _⟩ => show (((0 * 256 + n.val) * 256 + q.val) * 128 + e.val) / 128 % 256 = q.val; omega
    | ⟨3, _⟩ => show (((0 * 256 + n.val) * 256 + q.val) * 128 + e.val) / 32 % 4 = e.val / 32; omega
    | ⟨4, _⟩ => show (((0 * 256 + n.val) * 256 + q.val) * 128 + e.val) % 32 = e.val % 32; omega)

/-- The output product at (0, n, q, c): one sum over the 128 features against row c of the output weights. -/
theorem v38_at (n q : Fin 256) (c : Fin 128) :
    val_main_v38 (F := Ideal) x0 x1 x2 x3 x4 x5 x6 x7 x8 x9 (ix4 0 n q c)
      = ∑ e : Fin 128, Cert.Attn.ogA x0 x1 x2 x3 x4 x5 x6 x7 x8 n (Cert.Attn.headOf e) q (Cert.Attn.subOf e)
          * x9 (ix2 c (Cert.Attn.feat (Cert.Attn.headOf e) (Cert.Attn.subOf e))) := by
  refine (val_main_v38_apply x0 x1 x2 x3 x4 x5 x6 x7 x8 x9 _).trans ?_
  refine Finset.sum_congr rfl fun e _ => ?_
  refine congrArg₂ (· * ·) ?_ (congrArg x9 ?_)
  · refine (congrArg (val_main_v37 (F := Ideal) x0 x1 x2 x3 x4 x5 x6 x7 x8) ?_).trans
      (v37_at x0 x1 x2 x3 x4 x5 x6 x7 x8 n q e)
    exact funext fun a => Fin.ext (by match a with | ⟨0, _⟩ => rfl | ⟨1, _⟩ => rfl | ⟨2, _⟩ => rfl | ⟨3, _⟩ => rfl)
  · rw [Cert.Attn.feat_headOf_subOf]
    exact funext fun a => Fin.ext (by match a with | ⟨0, _⟩ => rfl | ⟨1, _⟩ => rfl)

/-- The output bias, broadcast over rows and query positions. -/
theorem v40_at (n q : Fin 256) (c : Fin 128) :
    val_main_v40 (F := Ideal) x10 (ix4 0 n q c) = x10 (ix1 c) := by
  refine (val_main_v40_apply x10 _).trans ?_
  refine (val_main_v39_apply x10 _).trans ?_
  refine congrArg x10 ?_
  exact funext fun a => Fin.ext (by match a with | ⟨0, _⟩ => rfl)

end Stages

/-- The reference's last stage is the whole-array function of the arguments. -/
theorem ref_eq (x0 x1 : (⟨S1x256x256x128, .f32⟩ : BufTy).Contents (Elt Ideal)) (x2 : (⟨S1x256x1x1x256, .f32⟩ : BufTy).Contents (Elt Ideal))
    (x3 : (⟨S1x1x4x256x256, .f32⟩ : BufTy).Contents (Elt Ideal)) (x4 x5 x6 x7 : (⟨S4x32x128, .f32⟩ : BufTy).Contents (Elt Ideal))
    (x8 : (⟨S4x32, .f32⟩ : BufTy).Contents (Elt Ideal)) (x9 : (⟨S128x128, .f32⟩ : BufTy).Contents (Elt Ideal))
    (x10 : (⟨S128, .f32⟩ : BufTy).Contents (Elt Ideal)) :
    val_main_v41 (F := Ideal) x0 x1 x2 x3 x4 x5 x6 x7 x8 x9 x10 = Cert.Attn.G x0 x1 x2 x3 x4 x5 x6 x7 x8 x9 x10 := by
  refine Cert.Attn.arr_ext fun n q c => ?_
  rw [Cert.Attn.G_apply, Cert.Attn.outAcc_eq_outSum]
  unfold Cert.Attn.outSum
  refine (val_main_v41_apply x0 x1 x2 x3 x4 x5 x6 x7 x8 x9 x10 _).trans ?_
  exact congrArg₂ (· + ·) (v38_at x0 x1 x2 x3 x4 x5 x6 x7 x8 x9 n q c) (v40_at x10 n q c)

end Cert.ReferenceIdeal.Attn

end
-- ==== Proof.lean ====
/-
  Gated multi-head attention along the rows of a pair representation, kernel against reference, over the extended
  reals.

  For a row n, a head h, a query position q and a key position k the logit is the scaled product of the query and key
  projections over the head's 32 features, plus the row's mask at k, plus the head's pair bias at (q, k); the
  probabilities are the softmax of the logits over k; the head's output feature d is the probability-weighted sum of the
  value projections times the sigmoid gate of the gate projection plus its bias; and the result at (n, q, c) is the sum
  over the 4 · 32 gated features of feature times output weight, plus the output bias.

  The kernel handles 16 rows per grid point, flattens them to 4096 rows, casts operands to a narrower format before each
  product (the identity on extended reals), spreads the mask over the query positions by a product with a column of ones
  (1 · x = x, 0 + x = x), and adds the four heads' partial output projections one after the other onto zero. The
  reference forms each stage over the whole arrays at once and contracts all 128 features in one sum. Both apply the same
  operations in the same order to the same numbers — the scale is the same binary value on both sides, the sigmoid is
  1 / (1 + exp (−x)) in both — so the two results are one function G of the eleven arguments, index by index; the only
  law used is that a sum over 128 features may be grouped by head, which holds for extended reals because their
  addition is commutative and associative. No operand needs to be finite.

  The three frames are the generated ones (the reference's is its run with the result dropped); the idealization
  rewrote nothing, so its soundness claim is trivial.
-/
import proofs.«423711_j1065151889535_3_alg».proof.Defs
import proofs.«423711_j1065151889535_3_alg».proof.Proof.Gen.Kernel
import proofs.«423711_j1065151889535_3_alg».proof.Proof.Gen.Kernel.Skeleton
import proofs.«423711_j1065151889535_3_alg».proof.Proof.Gen.Kernel.Launch
import proofs.«423711_j1065151889535_3_alg».proof.Proof.Gen.Kernel.Points
import proofs.«423711_j1065151889535_3_alg».proof.Proof.Gen.Kernel.Frame
import proofs.«423711_j1065151889535_3_alg».proof.Proof.Gen.KernelIdeal
import proofs.«423711_j1065151889535_3_alg».proof.Proof.Gen.KernelIdeal.Skeleton
import proofs.«423711_j1065151889535_3_alg».proof.Proof.Gen.KernelIdeal.Launch
import proofs.«423711_j1065151889535_3_alg».proof.Proof.Gen.KernelIdeal.Points
import proofs.«423711_j1065151889535_3_alg».proof.Proof.Gen.KernelIdeal.Frame
import proofs.«423711_j1065151889535_3_alg».proof.Proof.Gen.ReferenceIdeal
import proofs.«423711_j1065151889535_3_alg».proof.Proof.ValueP
import proofs.«423711_j1065151889535_3_alg».proof.Proof.Spec
import proofs.«423711_j1065151889535_3_alg».proof.Proof.Gen.ReferenceIdeal.Run
import proofs.«423711_j1065151889535_3_alg».proof.Proof.Gen.ReferenceIdeal.Read
import proofs.«423711_j1065151889535_3_alg».proof.Proof.Gen.Pre_finite_inputs
import proofs.«423711_j1065151889535_3_alg».proof.Proof.KBlock
import proofs.«423711_j1065151889535_3_alg».proof.Proof.RefG
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- The reference runs and leaves its arguments as they were: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From arguments that agree, the kernel's result array and the reference's are the same function G of them. -/
theorem algebraic : Cert.algebraic_KernelIdeal_ReferenceIdeal := by
  intro m ρ m' ρ' _ hagree
  refine ⟨_, Cert.KernelIdeal.Attn.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v41_eq, Cert.ReferenceIdeal.Attn.ref_eq]
  rw [(hagree c).1, (hagree c).2.1, (hagree c).2.2.1, (hagree c).2.2.2.1, (hagree c).2.2.2.2.1, (hagree c).2.2.2.2.2.1,
    (hagree c).2.2.2.2.2.2.1, (hagree c).2.2.2.2.2.2.2.1, (hagree c).2.2.2.2.2.2.2.2.1, (hagree c).2.2.2.2.2.2.2.2.2.1,
    (hagree c).2.2.2.2.2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
